-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S256x16384 : Shape := ⟨2, ![256, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S256x16384 : S_.BroadcastsInDim S256x16384 (![] : Fin 0 → Fin S256x16384.rank)
  reducesTo_S256x16384_S_d0_1 : S256x16384.ReducesTo [0, 1] S_

variable [Facts]

def fn {F : FTy → Type} [FloatOps F] (main_arg0 : FVec F S2048x16384 .f32) (main_arg1 : FVec F S256x16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S256x16384 .f32 := Host.absf main_arg1
  let main_cst_0 : FVec F S_ .f32 := constant S_ .f32 0x7F800000#32
  let main_v5 : FVec F S256x16384 .f32 := broadcastInDim S256x16384 ![] bcast_S_S256x16384 main_cst_0
  let main_v6 : IVec S256x16384 1 := cmpf .olt main_v4 main_v5
  let main_c_1 : IVec S_ 1 := constantI S_ 1 1#1
  let main_v7 : IVec S_ 1 := (fun x v => Host.reduce IntOp.andi x v reducesTo_S256x16384_S_d0_1 h_S_) main_v6 main_c_1
  let main_v8 : IVec S_ 1 := andi main_v3 main_v7
  main_v8
-- ==== Kernel.lean ====
abbrev S2048x16384 : Shape := ⟨2, ![2048, 16384]⟩
abbrev S256x16384 : Shape := ⟨2, ![256, 16384]⟩
abbrev S256x4096 : Shape := ⟨2, ![256, 4096]⟩
abbrev S2048x256 : Shape := ⟨2, ![2048, 256]⟩
abbrev S512x4096 : Shape := ⟨2, ![512, 4096]⟩
abbrev S512x256 : Shape := ⟨2, ![512, 256]⟩
abbrev S512x1 : Shape := ⟨2, ![512, 1]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S2048x16384, .f32⟩
  | .hbm, ⟨1, _⟩ => ⟨S256x16384, .f32⟩
  | .hbm, ⟨2, _⟩ => ⟨S256x16384, .bf16⟩
  | .hbm, ⟨3, _⟩ => ⟨S2048x256, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S256x4096, .bf16⟩
  | .local _ .vmem, ⟨7, _⟩ => ⟨S256x4096, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x1, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S256x4096_S256x4096 : S256x4096.ShapeCasts S256x4096
  reduces_S512x4096_S512 : S512x4096.Reduces [1] S512
  shapeCasts_S512_S512x1 : S512.ShapeCasts S512x1
  broadcasts_S512x1_S512x256 : S512x1.Broadcasts S512x256
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x16384.size a
  hwx0_0 : ∀ i : grid0.Coords, EltTy.bits .f32 = 32 ∨ (Rect.block (s := S256x16384) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x16384.size a
  hwx0_1 : ∀ i : grid0.Coords, EltTy.bits .bf16 = 32 ∨ (Rect.block (s := S256x16384) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x16384.size a
  hwx1_0 : ∀ i : grid1.Coords, EltTy.bits .f32 = 32 ∨ (Rect.block (s := S2048x16384) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x16384.size a
  hwx1_1 : ∀ i : grid1.Coords, EltTy.bits .bf16 = 32 ∨ (Rect.block (s := S256x16384) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S2048x256.size a
  hwx1_2 : ∀ i : grid1.Coords, EltTy.bits .f32 = 32 ∨ (Rect.block (s := S2048x256) S512x256.size (cc1_transform_2 i) (hinb1_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2048x16384 : Shape := ⟨2, ![2048, 16384]⟩
abbrev S256x16384 : Shape := ⟨2, ![256, 16384]⟩
abbrev S_ : Shape := ⟨0, ![]⟩
abbrev S2048x256 : Shape := ⟨2, ![2048, 256]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S_, .f32⟩
  | .hbm, ⟨5, _⟩ => ⟨S256x16384, .f32⟩
  | .hbm, ⟨6, _⟩ => ⟨S256x16384, .f32⟩
  | .hbm, ⟨7, _⟩ => ⟨S_, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256x16384, .f32⟩
  | .hbm, ⟨12, _⟩ => ⟨S256x16384, .f32⟩
  | .hbm, ⟨13, _⟩ => ⟨S_, .f32⟩
  | .hbm, ⟨14, _⟩ => ⟨S_, .f32⟩
  | .hbm, ⟨15, _⟩ => ⟨S256x16384, .f32⟩
  | .hbm, ⟨16, _⟩ => ⟨S256x16384, .f32⟩
  | .hbm, ⟨17, _⟩ => ⟨S256x16384, .f32⟩
  | .hbm, ⟨18, _⟩ => ⟨S2048x256, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x256, .f32⟩
  | .hbm, ⟨27, _⟩ => ⟨S2048x256, .f32⟩
  | .hbm, ⟨28, _⟩ => ⟨S2048x256, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S256x16384 : S_.BroadcastsInDim S256x16384 (![] : Fin 0 → Fin S256x16384.rank)
  reducesTo_S2048x16384_S2048_d1 : S2048x16384.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  dot_S2048x16384_S256x16384_S2048x256_1_1_0_0_n_n_wf : DotDims.WF S2048x16384 S256x16384 S2048x256 [1] [1] [0] [0] [] []

variable [Facts₀]

def dot_S2048x16384_S256x16384_S2048x256_1_1_0_0_n_n : DotDims S2048x16384 S256x16384 S2048x256 where
  lhsContracting := [1]
  rhsContracting := [1]
  lhsNonContracting := [0]
  rhsNonContracting := [0]
  lhsBatch := []
  rhsBatch := []
  wf := dot_S2048x16384_S256x16384_S2048x256_1_1_0_0_n_n_wf

class Facts : Prop extends Facts₀ where

variable [Facts]
-- ==== Proof.HandKernel.Reg0.lean ====
/-
  The first launch: the elementwise map raw ↦ log (max ε (10 · σ raw)), tiled along the long axis in four column
  blocks of 4096. Each grid point fetches one [256, 4096] block of the raw weights, stores the map of that block,
  cast to bf16, whole into the output window's staging buffer, and the pipeline writes the block back. Stated at a
  parameter V, the buffers' contents when the launch is entered.
-/
import proofs.«104831_j17901423690383_1_alg».proof.Proof.Gen.Kernel.Launch
import proofs.«104831_j17901423690383_1_alg».proof.Proof.Gen.Kernel.Skeleton
import proofs.«104831_j17901423690383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point: it is fetched at every point and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [256, 4096] block as a rectangle. -/
abbrev rW0 : Rect S256x4096 := Rect.unit (s := S256x4096) ![0, 0] S256x4096.size inb_S256x4096_S256x4096_0_0

/-- What the body leaves in the output's staging buffer: its one store, of the map of the loaded block. -/
def out0_1 (x0 : Vec F S256x4096 .f32) : Vec F S256x4096 .bf16 :=
  View.canon [⟨rW0, k0_pay1 (View.ld x0 rW0)⟩]

/-- The one store covers the buffer. -/
theorem cover0_1 (p0 : Vec F S256x4096 .bf16) (y : S256x4096.Idx) :
    ∃ pc ∈ ([⟨rW0, p0⟩] : List (View.Piece (Elt F) S256x4096 .bf16)), y ∈ pc.1.set :=
  View.cover_of_tiled [⟨rW0, p0⟩] S256x4096.size (by rfl) y

set_option maxHeartbeats 1000000 in
/-- The body on whole staging memrefs, the input's at x0 and the output's at anything, ends with the input's as it was
    and the output's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logw_kernel i arg1 harg1 arg2 harg2) K := by
  simp only [cc0__logw_kernel_eq_skeleton]; unfold cc0__logw_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core c: the arrays as found; after the body at point t the input's buffer at its block
    and the output's at the map of that block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.HandKernel.Reg1Runs.lean ====
/-
  The second launch: on a 4 × 4 grid (row tile i, column tile k, k innermost) each point adds to a [512, 256]
  accumulator the product of its [512, 4096] block of the 0/1 matrix with the transpose of its [256, 4096] block of
  log-weights, and to a [512, 1] accumulator the row sums of that block; both accumulators live in scratch buffers
  carried from point to point, are reset at k = 0, and at k = 3 the output block exp (acc / max (count, 1)) is stored
  and written back. Stated at a parameter V, the buffers' contents when the launch is entered.
-/
import proofs.«104831_j17901423690383_1_alg».proof.Proof.Gen.Kernel.Launch
import proofs.«104831_j17901423690383_1_alg».proof.Proof.Gen.Kernel.Skeleton
import proofs.«104831_j17901423690383_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point: both are fetched at every point and left as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "k = 0": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the output window is idle and not written back; where k = 3 it is live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scA : Memref sig .tc .vmem S512x256 .f32 := Memref.whole cc1_scratch0
abbrev scN : Memref sig .tc .vmem S512x1 .f32 := Memref.whole cc1_scratch1

/-- The invariant the launch hands the body, with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scA fullShare d) ∗ (∃ d, owns (c : Thread nD τ) scN fullShare d)) ∗ (∃ r, prngReg c r)) := by
  unfold Pipeline.ΦA; rw [scopedRest1_eq]; simp only [scA, scN, owns_whole]; try rfl

/-! ## The whole-buffer rectangles -/

abbrev rA : Rect S512x256 := Rect.unit (s := S512x256) ![0, 0] S512x256.size inb_S512x256_S512x256_0_0
abbrev rN : Rect S512x1 := Rect.unit (s := S512x1) ![0, 0] S512x1.size inb_S512x1_S512x1_0_0
abbrev rX : Rect S512x4096 := Rect.unit (s := S512x4096) ![0, 0] S512x4096.size inb_S512x4096_S512x4096_0_0
abbrev rW : Rect S256x4096 := Rect.unit (s := S256x4096) ![0, 0] S256x4096.size inb_S256x4096_S256x4096_0_0

theorem hz2 : (![0, 0] : Fin 2 → Nat) = fun _ => 0 := by funext a; fin_cases a <;> rfl

/-- One store through the whole-buffer rectangle covers the buffer, and so does a list of stores whose last is one. -/
theorem coverA (p : Vec F S512x256 .f32) (y : S512x256.Idx) :
    ∃ pc ∈ ([⟨rA, p⟩] : List (View.Piece (Elt F) S512x256 .f32)), y ∈ pc.1.set :=
  View.cover_of_tiled [⟨rA, p⟩] S512x256.size (by rfl) y
theorem coverN (p : Vec F S512x1 .f32) (y : S512x1.Idx) :
    ∃ pc ∈ ([⟨rN, p⟩] : List (View.Piece (Elt F) S512x1 .f32)), y ∈ pc.1.set :=
  View.cover_of_tiled [⟨rN, p⟩] S512x1.size (by rfl) y
theorem coverA2 (p q : Vec F S512x256 .f32) (y : S512x256.Idx) :
    ∃ pc ∈ ([⟨rA, p⟩, ⟨rA, q⟩] : List (View.Piece (Elt F) S512x256 .f32)), y ∈ pc.1.set := by
  obtain ⟨pc, hpc, hy⟩ := coverA p y
  exact ⟨pc, by rw [List.mem_singleton.mp hpc]; exact List.mem_cons_self, hy⟩
theorem coverN2 (p q : Vec F S512x1 .f32) (y : S512x1.Idx) :
    ∃ pc ∈ ([⟨rN, p⟩, ⟨rN, q⟩] : List (View.Piece (Elt F) S512x1 .f32)), y ∈ pc.1.set := by
  obtain ⟨pc, hpc, hy⟩ := coverN p y
  exact ⟨pc, by rw [List.mem_singleton.mp hpc]; exact List.mem_cons_self, hy⟩

/-- One store through the whole-buffer rectangle leaves its payload, read back through the buffer's view. -/
theorem read_store_A (v : View sig .tc .vmem S512x256 .f32) (f : v.ty.Contents (Elt F)) (P : Vec F S512x256 .f32) :
    v.read (Elt F) (v.writes (Elt F) f [⟨rA, P⟩]) = P := by
  rw [View.read_writes_eq_canon _ _ _ (coverA P)]
  exact View.canon_unit_zero (S := S512x256) hz2 _ _
theorem read_store_N (v : View sig .tc .vmem S512x1 .f32) (f : v.ty.Contents (Elt F)) (P : Vec F S512x1 .f32) :
    v.read (Elt F) (v.writes (Elt F) f [⟨rN, P⟩]) = P := by
  rw [View.read_writes_eq_canon _ _ _ (coverN P)]
  exact View.canon_unit_zero (S := S512x1) hz2 _ _
/-- The later of two such stores leaves its payload. -/
theorem read_store2_A (v : View sig .tc .vmem S512x256 .f32) (f : v.ty.Contents (Elt F)) (P Q : Vec F S512x256 .f32) :
    v.read (Elt F) (v.writes (Elt F) f [⟨rA, P⟩, ⟨rA, Q⟩]) = P := by
  rw [View.read_writes_eq_canon _ _ _ (coverA2 P Q)]
  exact View.canon_cons_unit_zero (S := S512x256) hz2 _ _ _
theorem read_store2_N (v : View sig .tc .vmem S512x1 .f32) (f : v.ty.Contents (Elt F)) (P Q : Vec F S512x1 .f32) :
    v.read (Elt F) (v.writes (Elt F) f [⟨rN, P⟩, ⟨rN, Q⟩]) = P := by
  rw [View.read_writes_eq_canon _ _ _ (coverN2 P Q)]
  exact View.canon_cons_unit_zero (S := S512x1) hz2 _ _ _

set_option maxHeartbeats 1000000 in
/-- k ≠ 0, k ≠ 3: both accumulators are added to; the output's buffer is handed back untouched. -/
theorem run1_B (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : ¬cond1_0 i) (hc1 : ¬cond1_1 i)
    (x0 : Vec F S512x4096 .f32) (x1 : Vec F S256x4096 .bf16) (xi : Vec F S512x256 .f32) (a : Vec F S512x256 .f32) (n : Vec F S512x1 .f32)
    (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare a ∗ owns (c : Thread nD τ) arg6 fullShare n
        ∗ (iprop(owns (c : Thread nD τ) arg2 fullShare x0 ∗ owns (c : Thread nD τ) arg3 fullShare x1 ∗ owns (c : Thread nD τ) arg4 fullShare xi ∗ owns (c : Thread nD τ) arg5 fullShare (k1_pay3 x0 x1 a) ∗ owns (c : Thread nD τ) arg6 fullShare (k1_pay4 x0 n)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

set_option maxHeartbeats 1000000 in
/-- k = 0: both accumulators are reset to zero and then added to; the output's buffer is handed back untouched. -/
theorem run1_A (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : cond1_0 i) (hc1 : ¬cond1_1 i)
    (x0 : Vec F S512x4096 .f32) (x1 : Vec F S256x4096 .bf16) (xi : Vec F S512x256 .f32)
    (K : PUnit → sProp 𝕄) :
    iprop(owns (c : Thread nD τ) arg2 fullShare x0 ∗ owns (c : Thread nD τ) arg3 fullShare x1 ∗ owns (c : Thread nD τ) arg4 fullShare xi ∗ (∃ a, owns (c : Thread nD τ) arg5 fullShare a) ∗ (∃ n, owns (c : Thread nD τ) arg6 fullShare n)
        ∗ (iprop(owns (c : Thread nD τ) arg2 fullShare x0 ∗ owns (c : Thread nD τ) arg3 fullShare x1 ∗ owns (c : Thread nD τ) arg4 fullShare xi ∗ owns (c : Thread nD τ) arg5 fullShare (k1_pay3 x0 x1 k1_pay1) ∗ owns (c : Thread nD τ) arg6 fullShare (k1_pay4 x0 k1_pay2)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%f2, %hf2, H2⟩, ⟨%a, %f3, -, H3⟩, ⟨%n, %f4, -, H4⟩, Hk⟩
  subst hf0 hf1 hf2
  sl_exec (disch := first | exact hc0 | exact hc1)
  sl_step
  iapply Hk
  sl_unfold_words
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store2_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store2_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

set_option maxHeartbeats 1000000 in
/-- k = 3 (so k ≠ 0): both accumulators are added to, and the output block is stored from them. -/
theorem run1_C (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : ¬cond1_0 i) (hc1 : cond1_1 i)
    (x0 : Vec F S512x4096 .f32) (x1 : Vec F S256x4096 .bf16) (a : Vec F S512x256 .f32) (n : Vec F S512x1 .f32)
    (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare a ∗ owns (c : Thread nD τ) arg6 fullShare n
        ∗ (iprop(owns (c : Thread nD τ) arg2 fullShare x0 ∗ owns (c : Thread nD τ) arg3 fullShare x1 ∗ owns (c : Thread nD τ) arg4 fullShare (k1_pay5 (k1_pay4 x0 n) (k1_pay3 x0 x1 a)) ∗ owns (c : Thread nD τ) arg5 fullShare (k1_pay3 x0 x1 a) ∗ owns (c : Thread nD τ) arg6 fullShare (k1_pay4 x0 n)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%d, %f2, -, H2⟩, ⟨%f3, %hf3, H3⟩, ⟨%f4, %hf4, H4⟩, Hk⟩
  subst hf0 hf1 hf3 hf4
  sl_exec (disch := first | exact hc0 | exact hc1)
  sl_step
  iapply Hk
  sl_unfold_words
  isplitl [H0]
  · iexists _; isplitr; · ipureintro; rfl
    iexact H0
  isplitl [H1]
  · iexists _; isplitr; · ipureintro; rfl
    iexact H1
  isplitl [H2]
  · iexists _; isplitr
    swap; · iexact H2
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  isplitl [H3]
  · iexists _; isplitr
    swap; · iexact H3
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

end Cert.Kernel.Hand

end
-- ==== Proof.HandKernel.Reg1.lean ====
/-
  The second launch's proof data: what the two carried accumulators hold after each grid point, the invariant that
  carries them from point to point, what each window's staging buffer holds after the body, and the body obligation
  at every point, by cases on the column tile k = t mod 4 (k = 0 resets, k = 3 also stores the output block).
-/
import proofs.«104831_j17901423690383_1_alg».proof.Proof.Gen.Kernel.Launch
import proofs.«104831_j17901423690383_1_alg».proof.Proof.Gen.Kernel.Skeleton
import proofs.«104831_j17901423690383_1_alg».proof.Proof.Gen.Kernel.Points
import proofs.«104831_j17901423690383_1_alg».proof.Proof.HandKernel.Reg1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point's two input blocks at their literal types. -/
abbrev xblk (c : Dev nD) (t : Fin cfg1.N) : Vec F S512x4096 .f32 := iblk1 V c 0 t
abbrev wblk (c : Dev nD) (t : Fin cfg1.N) : Vec F S256x4096 .bf16 := iblk1 V c 1 t

/-- THE ACCUMULATION. The two accumulators after the body at position n: at a position with n mod 4 = 0 the update of the
    zero accumulators by the point's blocks, otherwise the update of what the position before left. -/
def accAt (c : Dev nD) : (n : ℕ) → n < cfg1.N → Vec F S512x256 .f32 × Vec F S512x1 .f32
  | 0, hn => (k1_pay3 (xblk V c ⟨0, hn⟩) (wblk V c ⟨0, hn⟩) k1_pay1, k1_pay4 (xblk V c ⟨0, hn⟩) k1_pay2)
  | n + 1, hn =>
    if (n + 1) % 4 = 0 then
      (k1_pay3 (xblk V c ⟨n + 1, hn⟩) (wblk V c ⟨n + 1, hn⟩) k1_pay1, k1_pay4 (xblk V c ⟨n + 1, hn⟩) k1_pay2)
    else
      (k1_pay3 (xblk V c ⟨n + 1, hn⟩) (wblk V c ⟨n + 1, hn⟩) (accAt c n (Nat.lt_of_succ_lt hn)).1,
        k1_pay4 (xblk V c ⟨n + 1, hn⟩) (accAt c n (Nat.lt_of_succ_lt hn)).2)

/-- At a point with k = 0 the accumulators restart from zero. -/
theorem accAt_reset (c : Dev nD) (t : Fin cfg1.N) (h0 : t.val % 4 = 0) :
    accAt V c t.val t.isLt = (k1_pay3 (xblk V c t) (wblk V c t) k1_pay1, k1_pay4 (xblk V c t) k1_pay2) := by
  obtain ⟨n, hn⟩ := t
  cases n with
  | zero => rfl
  | succ n => exact if_pos h0

/-- At a point with k ≠ 0 they continue from what the point before left. -/
theorem accAt_step (c : Dev nD) (t : Fin cfg1.N) (h0 : ¬t.val % 4 = 0) :
    accAt V c t.val t.isLt = (k1_pay3 (xblk V c t) (wblk V c t) (accAt V c (t.val - 1) (Nat.lt_of_le_of_lt (Nat.sub_le _ _) t.isLt)).1,
      k1_pay4 (xblk V c t) (accAt V c (t.val - 1) (Nat.lt_of_le_of_lt (Nat.sub_le _ _) t.isLt)).2) := by
  obtain ⟨n, hn⟩ := t
  cases n with
  | zero => exact absurd (Nat.zero_mod _) h0
  | succ n => exact if_neg h0

/-- The first launch's four staging buffers, which this launch never touches. -/
def restB (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the launch hands the body before the first point: those four buffers, the two accumulators at anything, the
    generator register (the launch's own invariant, regrouped). -/
theorem PhiA1_fwd (c : Dev nD) : (Pipeline.ΦA spec1 c : sProp 𝕄) ⊢ iprop(iprop(restB (F := F) c ∗ (∃ d, owns (c : Thread nD τ) scA fullShare d) ∗ (∃ d, owns (c : Thread nD τ) scN fullShare d)) ∗ (∃ r, prngReg c r)) := by
  rw [PhiA1_eq]; unfold restB
  iintro ⟨⟨H0, H1, H2, H3, HA, HN⟩, Hg⟩
  isplitl [H0 H1 H2 H3 HA HN]
  · isplitl [H0 H1 H2 H3]
    · isplitl [H0]; · iexact H0
      isplitl [H1]; · iexact H1
      isplitl [H2]; · iexact H2
      iexact H3
    isplitl [HA]; · iexact HA
    iexact HN
  iexact Hg
theorem PhiA1_bwd (c : Dev nD) : iprop(iprop(restB (F := F) c ∗ (∃ d, owns (c : Thread nD τ) scA fullShare d) ∗ (∃ d, owns (c : Thread nD τ) scN fullShare d)) ∗ (∃ r, prngReg c r)) ⊢ (Pipeline.ΦA spec1 c : sProp 𝕄) := by
  rw [PhiA1_eq]; unfold restB
  iintro ⟨⟨⟨H0, H1, H2, H3⟩, HA, HN⟩, Hg⟩
  isplitl [H0 H1 H2 H3 HA HN]
  · isplitl [H0]; · iexact H0
    isplitl [H1]; · iexact H1
    isplitl [H2]; · iexact H2
    isplitl [H3]; · iexact H3
    isplitl [HA]; · iexact HA
    iexact HN
  iexact Hg
theorem PhiA1_eq' (c : Dev nD) : (Pipeline.ΦA spec1 c : sProp 𝕄) = iprop(iprop(restB (F := F) c ∗ (∃ d, owns (c : Thread nD τ) scA fullShare d) ∗ (∃ d, owns (c : Thread nD τ) scN fullShare d)) ∗ (∃ r, prngReg c r)) :=
  Idealize.SL.BI.Entails.antisymm (PhiA1_fwd (F := F) c) (PhiA1_bwd (F := F) c)

/-- The invariant before position n: before the first point the launch's own; afterwards the two accumulators at what the
    point before left in them. -/
def PhiS (c : Dev nD) : (n : ℕ) → n ≤ cfg1.N → sProp 𝕄
  | 0, _ => Pipeline.ΦA spec1 c
  | n + 1, hn => iprop(iprop(restB (F := F) c ∗ owns (c : Thread nD τ) scA fullShare (accAt V c n hn).1 ∗ owns (c : Thread nD τ) scN fullShare (accAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(restB (F := F) c ∗ owns (c : Thread nD τ) scA fullShare (accAt V c n hn).1 ∗ owns (c : Thread nD τ) scN fullShare (accAt V c n hn).2) ∗ (∃ r, prngReg c r)) := rfl

theorem PhiS_pos (c : Dev nD) (n : ℕ) (h : n ≤ cfg1.N) (hz : n ≠ 0) :
    PhiS V c n h = iprop(iprop(restB (F := F) c ∗ owns (c : Thread nD τ) scA fullShare (accAt V c (n - 1) (by omega)).1 ∗ owns (c : Thread nD τ) scN fullShare (accAt V c (n - 1) (by omega)).2) ∗ (∃ r, prngReg c r)) := by
  cases n with
  | zero => exact absurd rfl hz
  | succ n => rfl

/-- The launch's proof data on core c: the arrays as found; after the body at point t each input's buffer at its block
    and the output's at exp (acc / max (count, 1)) of the accumulators after that point (read only where k = 3). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt V c t.val t.isLt).2 (accAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt V c t.val t.isLt).2 (accAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 4 says which case the point is in; the
    invariant hands the body the accumulators at what the point before left (at anything before the first point) and
    takes them back at this point's contents; where k ≠ 3 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt_reset V c t h0]; dsimp only
    by_cases hz : t.val = 0
    · rw [PhiS_castSucc V c t, PhiS_zero V c _ _ hz, PhiA1_eq']
      iintro ⟨⟨⟨HR, HA, HN⟩, Hg⟩, Ho, ⟨%d0, H0⟩, ⟨%d1, H1⟩, ⟨%d2, H2⟩⟩
      iapply (run1_A c Set.univ (grid1.coords t) _ (hs1_0 t) _ (hs1_1 t) _ (hs1_2 t) _ (Memref.isWhole_whole _) _ (Memref.isWhole_whole _) hc0 hc1 (xblk V c t) (wblk V c t) ((dat1 V c).before 2 t d2) _)
      isplitl [H0]; · iexact H0
      isplitl [H1]; · iexact H1
      isplitl [H2]; · iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HA, HN⟩, Hg⟩, Ho, ⟨%d0, H0⟩, ⟨%d1, H1⟩, ⟨%d2, H2⟩⟩
      iapply (run1_A c Set.univ (grid1.coords t) _ (hs1_0 t) _ (hs1_1 t) _ (hs1_2 t) _ (Memref.isWhole_whole _) _ (Memref.isWhole_whole _) hc0 hc1 (xblk V c t) (wblk V c t) ((dat1 V c).before 2 t d2) _)
      isplitl [H0]; · iexact H0
      isplitl [H1]; · iexact H1
      isplitl [H2]; · iexact H2
      isplitl [HA]; · iexists _; iexact HA
      isplitl [HN]; · iexists _; iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [accAt_step V c t h0]; dsimp only
      rw [PhiS_castSucc V c t, PhiS_pos V c _ _ hz]
      iintro ⟨⟨⟨HR, HA, HN⟩, Hg⟩, Ho, ⟨%d0, H0⟩, ⟨%d1, H1⟩, ⟨%d2, H2⟩⟩
      iapply (run1_C c Set.univ (grid1.coords t) _ (hs1_0 t) _ (hs1_1 t) _ (hs1_2 t) _ (Memref.isWhole_whole _) _ (Memref.isWhole_whole _) hc0 hc1 (xblk V c t) (wblk V c t) _ _ _)
      isplitl [H0]; · iexact H0
      isplitl [H1]; · iexact H1
      isplitl [H2]; · iexists _; iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      rw [accAt_step V c t h0]; dsimp only
      rw [PhiS_castSucc V c t, PhiS_pos V c _ _ hz]
      iintro ⟨⟨⟨HR, HA, HN⟩, Hg⟩, Ho, ⟨%d0, H0⟩, ⟨%d1, H1⟩, ⟨%d2, H2⟩⟩
      iapply (run1_B c Set.univ (grid1.coords t) _ (hs1_0 t) _ (hs1_1 t) _ (hs1_2 t) _ (Memref.isWhole_whole _) _ (Memref.isWhole_whole _) hc0 hc1 (xblk V c t) (wblk V c t) ((dat1 V c).before 2 t d2) _ _ _)
      isplitl [H0]; · iexact H0
      isplitl [H1]; · iexact H1
      isplitl [H2]; · iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's own back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq']
  iintro ⟨⟨HR, HA, HN⟩, Hg⟩
  isplitl [HR HA HN]
  · isplitl [HR]; · iexact HR
    isplitl [HA]; · iexists _; iexact HA
    iexists _; iexact HN
  iexact Hg

end Cert.Kernel.Hand

end
-- ==== Proof.HandKernel.Run.lean ====
/-
  The whole program: the two launches one after the other. The buffers' contents at the two boundaries are a fold
  from the launch memory — after the first launch the log-weight array holds what its write-backs leave, after the
  second the result array does — and each argument array is read back through the fold to its launch contents. Each
  launch is a segment entered from "every unscoped buffer at the boundary's contents" and left at the next boundary's;
  the run of the two segments ends with the result array at the second launch's last write-back state and the two
  arguments as launched.
-/
import proofs.«104831_j17901423690383_1_alg».proof.Proof.Gen.Kernel.Launch
import proofs.«104831_j17901423690383_1_alg».proof.Proof.Gen.Kernel.Skeleton
import proofs.«104831_j17901423690383_1_alg».proof.Proof.Gen.Kernel.Points
import proofs.«104831_j17901423690383_1_alg».proof.Proof.HandKernel.Reg0
import proofs.«104831_j17901423690383_1_alg».proof.Proof.HandKernel.Reg1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: the first launch's entry contents. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- After the first launch: its arrays at what its write-backs leave, every other buffer as entered. -/
def W2 (c : Dev nD) : Valuation τ sig (Elt F) :=
  Pipeline.withArrays spec0 c (W0 m ρ c) fun w => (dat0 (V0r m ρ) c).arrAt w cfg0.N
theorem W2_arr (c : Dev nD) (w : Fin cfg0.W) :
    W2 m ρ c (Proc.devRef .tc (Pipeline.arrRef spec0 w)) = (dat0 (V0r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2r : (c : Dev nD) → (b : Ref sig .tc) → Buf (Elt F) ((c : Thread nD τ).loc b) := fun c b => W2 m ρ c b
theorem hF0 (c : Dev nD) (w : Fin cfg0.W) : (dat0 (V0r m ρ) c).arrAt w cfg0.N = V2r m ρ c (Pipeline.arrRef spec0 w) :=
  (W2_arr m ρ c w).symm
theorem hrest0 (c : Dev nD) : ∀ b, b ∉ Finset.univ.image (Pipeline.arrRef spec0) → V2r m ρ c b = V0r m ρ c b :=
  fun b hb => W2_of_ne m ρ c b fun w e => hb (Finset.mem_image.mpr ⟨w, Finset.mem_univ _, e⟩)

/-- After the second launch: its arrays at what its write-backs leave, every other buffer as entered. -/
def W4 (c : Dev nD) : Valuation τ sig (Elt F) :=
  Pipeline.withArrays spec1 c (W2 m ρ c) fun w => (dat1 (V2r m ρ) c).arrAt w cfg1.N
theorem W4_arr (c : Dev nD) (w : Fin cfg1.W) :
    W4 m ρ c (Proc.devRef .tc (Pipeline.arrRef spec1 w)) = (dat1 (V2r m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4r : (c : Dev nD) → (b : Ref sig .tc) → Buf (Elt F) ((c : Thread nD τ).loc b) := fun c b => W4 m ρ c b
theorem hF1 (c : Dev nD) (w : Fin cfg1.W) : (dat1 (V2r m ρ) c).arrAt w cfg1.N = V4r m ρ c (Pipeline.arrRef spec1 w) :=
  (W4_arr m ρ c w).symm
theorem hrest1 (c : Dev nD) : ∀ b, b ∉ Finset.univ.image (Pipeline.arrRef spec1) → V4r m ρ c b = V2r m ρ c b :=
  fun b hb => W4_of_ne m ρ c b fun w e => hb (Finset.mem_image.mpr ⟨w, Finset.mem_univ _, e⟩)

/-! ## The arguments end as launched, and the result is the second launch's output array -/

/-- The 0/1 matrix is an input window of the second launch and untouched by the first. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2r m ρ) c).arrAt_in 0 rfl _).trans (A_eq1 (V2r m ρ) c 0))
    _ = W0 m ρ c (Proc.devRef .tc main_arg0) := W2_of_ne m ρ c main_arg0 (by decide)
    _ = m ((c : Thread nD τ).loc main_arg0) := rfl

/-- The raw weights are the first launch's input window and untouched by the second. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0r m ρ) c).arrAt_in 0 rfl _).trans (A_eq0 (V0r m ρ) c 0))
    _ = m ((c : Thread nD τ).loc main_arg1) := rfl

/-- The result array is the second launch's output window's array after its last write-back. -/
theorem W4_main_v1 (c : Dev nD) : W4 m ρ c (Proc.devRef .tc main_v1) = (dat1 (V2r m ρ) c).arrAt 2 cfg1.N :=
  W4_arr m ρ c 2

/-- The log-weight array the second launch reads is the first launch's output window's array after its last write-back. -/
theorem V2r_main_v0 (c : Dev nD) : V2r m ρ c main_v0 = (dat0 (V0r m ρ) c).arrAt 1 cfg0.N :=
  W2_arr m ρ c 1

/-- The 0/1 matrix the second launch reads is the argument. -/
theorem V2r_main_arg0 (c : Dev nD) : V2r m ρ c main_arg0 = m ((c : Thread nD τ).loc main_arg0) :=
  W2_of_ne m ρ c main_arg0 (by decide)

/-- The raw weights the first launch reads are the argument. -/
theorem V0r_main_arg1 (c : Dev nD) : V0r m ρ c main_arg1 = m ((c : Thread nD τ).loc main_arg1) := rfl

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch: entered from every unscoped buffer at the launch memory, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W2`, left at `W4`; its invariant takes the launch's
    own in before the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2r m ρ) c
    unfold Pipeline.ΦA at h
    iintro ⟨Hp, -, Hr⟩
    iapply (show iprop(Pipeline.scopedRest spec1 c ∗ ∃ r, prngReg c r) ⊢ (pdats m ρ 1 c).Φ 0 from h)
    isplitl [Hr]; · iexact Hr
    iexact Hp
  hout c := by
    rw [Pipeline.ownSems0_none]
    have h := hout1 (V2r m ρ) c
    unfold Pipeline.ΦA at h
    iintro HP
    ihave H := (show (pdats m ρ 1 c).Φ (Fin.last _) ⊢ iprop(Pipeline.scopedRest spec1 c ∗ ∃ r, prngReg c r) from h) $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    the result array at the second launch's output array after its last write-back and the two arguments as launched. -/
theorem run_main : θ_run defs (onTc (τ := τ) (main (F := F))) ⟨m, fun _ => 0, ρ⟩ (fun r => ∀ c : Dev nD,
      r.2.mem ((c.tc : Thread nD τ).loc main_v1) = (dat1 (V2r m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.HandKernelIdeal.Reg0.lean ====
/-
  The first launch: the elementwise map raw ↦ log (max ε (10 · σ raw)), tiled along the long axis in four column
  blocks of 4096. Each grid point fetches one [256, 4096] block of the raw weights, stores the map of that block,
  cast to bf16, whole into the output window's staging buffer, and the pipeline writes the block back. Stated at a
  parameter V, the buffers' contents when the launch is entered.
-/
import proofs.«104831_j17901423690383_1_alg».proof.Proof.Gen.KernelIdeal.Launch
import proofs.«104831_j17901423690383_1_alg».proof.Proof.Gen.KernelIdeal.Skeleton
import proofs.«104831_j17901423690383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point: it is fetched at every point and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [256, 4096] block as a rectangle. -/
abbrev rW0 : Rect S256x4096 := Rect.unit (s := S256x4096) ![0, 0] S256x4096.size inb_S256x4096_S256x4096_0_0

/-- What the body leaves in the output's staging buffer: its one store, of the map of the loaded block. -/
def out0_1 (x0 : Vec F S256x4096 .f32) : Vec F S256x4096 .bf16 :=
  View.canon [⟨rW0, k0_pay1 (View.ld x0 rW0)⟩]

/-- The one store covers the buffer. -/
theorem cover0_1 (p0 : Vec F S256x4096 .bf16) (y : S256x4096.Idx) :
    ∃ pc ∈ ([⟨rW0, p0⟩] : List (View.Piece (Elt F) S256x4096 .bf16)), y ∈ pc.1.set :=
  View.cover_of_tiled [⟨rW0, p0⟩] S256x4096.size (by rfl) y

set_option maxHeartbeats 1000000 in
/-- The body on whole staging memrefs, the input's at x0 and the output's at anything, ends with the input's as it was
    and the output's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logw_kernel i arg1 harg1 arg2 harg2) K := by
  simp only [cc0__logw_kernel_eq_skeleton]; unfold cc0__logw_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core c: the arrays as found; after the body at point t the input's buffer at its block
    and the output's at the map of that block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HandKernelIdeal.Reg1Runs.lean ====
/-
  The second launch: on a 4 × 4 grid (row tile i, column tile k, k innermost) each point adds to a [512, 256]
  accumulator the product of its [512, 4096] block of the 0/1 matrix with the transpose of its [256, 4096] block of
  log-weights, and to a [512, 1] accumulator the row sums of that block; both accumulators live in scratch buffers
  carried from point to point, are reset at k = 0, and at k = 3 the output block exp (acc / max (count, 1)) is stored
  and written back. Stated at a parameter V, the buffers' contents when the launch is entered.
-/
import proofs.«104831_j17901423690383_1_alg».proof.Proof.Gen.KernelIdeal.Launch
import proofs.«104831_j17901423690383_1_alg».proof.Proof.Gen.KernelIdeal.Skeleton
import proofs.«104831_j17901423690383_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point: both are fetched at every point and left as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "k = 0": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the output window is idle and not written back; where k = 3 it is live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scA : Memref sig .tc .vmem S512x256 .f32 := Memref.whole cc1_scratch0
abbrev scN : Memref sig .tc .vmem S512x1 .f32 := Memref.whole cc1_scratch1

/-- The invariant the launch hands the body, with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) scA fullShare d) ∗ (∃ d, owns (c : Thread nD τ) scN fullShare d)) ∗ (∃ r, prngReg c r)) := by
  unfold Pipeline.ΦA; rw [scopedRest1_eq]; simp only [scA, scN, owns_whole]; try rfl

/-! ## The whole-buffer rectangles -/

abbrev rA : Rect S512x256 := Rect.unit (s := S512x256) ![0, 0] S512x256.size inb_S512x256_S512x256_0_0
abbrev rN : Rect S512x1 := Rect.unit (s := S512x1) ![0, 0] S512x1.size inb_S512x1_S512x1_0_0
abbrev rX : Rect S512x4096 := Rect.unit (s := S512x4096) ![0, 0] S512x4096.size inb_S512x4096_S512x4096_0_0
abbrev rW : Rect S256x4096 := Rect.unit (s := S256x4096) ![0, 0] S256x4096.size inb_S256x4096_S256x4096_0_0

theorem hz2 : (![0, 0] : Fin 2 → Nat) = fun _ => 0 := by funext a; fin_cases a <;> rfl

/-- One store through the whole-buffer rectangle covers the buffer, and so does a list of stores whose last is one. -/
theorem coverA (p : Vec F S512x256 .f32) (y : S512x256.Idx) :
    ∃ pc ∈ ([⟨rA, p⟩] : List (View.Piece (Elt F) S512x256 .f32)), y ∈ pc.1.set :=
  View.cover_of_tiled [⟨rA, p⟩] S512x256.size (by rfl) y
theorem coverN (p : Vec F S512x1 .f32) (y : S512x1.Idx) :
    ∃ pc ∈ ([⟨rN, p⟩] : List (View.Piece (Elt F) S512x1 .f32)), y ∈ pc.1.set :=
  View.cover_of_tiled [⟨rN, p⟩] S512x1.size (by rfl) y
theorem coverA2 (p q : Vec F S512x256 .f32) (y : S512x256.Idx) :
    ∃ pc ∈ ([⟨rA, p⟩, ⟨rA, q⟩] : List (View.Piece (Elt F) S512x256 .f32)), y ∈ pc.1.set := by
  obtain ⟨pc, hpc, hy⟩ := coverA p y
  exact ⟨pc, by rw [List.mem_singleton.mp hpc]; exact List.mem_cons_self, hy⟩
theorem coverN2 (p q : Vec F S512x1 .f32) (y : S512x1.Idx) :
    ∃ pc ∈ ([⟨rN, p⟩, ⟨rN, q⟩] : List (View.Piece (Elt F) S512x1 .f32)), y ∈ pc.1.set := by
  obtain ⟨pc, hpc, hy⟩ := coverN p y
  exact ⟨pc, by rw [List.mem_singleton.mp hpc]; exact List.mem_cons_self, hy⟩

/-- One store through the whole-buffer rectangle leaves its payload, read back through the buffer's view. -/
theorem read_store_A (v : View sig .tc .vmem S512x256 .f32) (f : v.ty.Contents (Elt F)) (P : Vec F S512x256 .f32) :
    v.read (Elt F) (v.writes (Elt F) f [⟨rA, P⟩]) = P := by
  rw [View.read_writes_eq_canon _ _ _ (coverA P)]
  exact View.canon_unit_zero (S := S512x256) hz2 _ _
theorem read_store_N (v : View sig .tc .vmem S512x1 .f32) (f : v.ty.Contents (Elt F)) (P : Vec F S512x1 .f32) :
    v.read (Elt F) (v.writes (Elt F) f [⟨rN, P⟩]) = P := by
  rw [View.read_writes_eq_canon _ _ _ (coverN P)]
  exact View.canon_unit_zero (S := S512x1) hz2 _ _
/-- The later of two such stores leaves its payload. -/
theorem read_store2_A (v : View sig .tc .vmem S512x256 .f32) (f : v.ty.Contents (Elt F)) (P Q : Vec F S512x256 .f32) :
    v.read (Elt F) (v.writes (Elt F) f [⟨rA, P⟩, ⟨rA, Q⟩]) = P := by
  rw [View.read_writes_eq_canon _ _ _ (coverA2 P Q)]
  exact View.canon_cons_unit_zero (S := S512x256) hz2 _ _ _
theorem read_store2_N (v : View sig .tc .vmem S512x1 .f32) (f : v.ty.Contents (Elt F)) (P Q : Vec F S512x1 .f32) :
    v.read (Elt F) (v.writes (Elt F) f [⟨rN, P⟩, ⟨rN, Q⟩]) = P := by
  rw [View.read_writes_eq_canon _ _ _ (coverN2 P Q)]
  exact View.canon_cons_unit_zero (S := S512x1) hz2 _ _ _

set_option maxHeartbeats 1000000 in
/-- k ≠ 0, k ≠ 3: both accumulators are added to; the output's buffer is handed back untouched. -/
theorem run1_B (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : ¬cond1_0 i) (hc1 : ¬cond1_1 i)
    (x0 : Vec F S512x4096 .f32) (x1 : Vec F S256x4096 .bf16) (xi : Vec F S512x256 .f32) (a : Vec F S512x256 .f32) (n : Vec F S512x1 .f32)
    (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare a ∗ owns (c : Thread nD τ) arg6 fullShare n
        ∗ (iprop(owns (c : Thread nD τ) arg2 fullShare x0 ∗ owns (c : Thread nD τ) arg3 fullShare x1 ∗ owns (c : Thread nD τ) arg4 fullShare xi ∗ owns (c : Thread nD τ) arg5 fullShare (k1_pay3 x0 x1 a) ∗ owns (c : Thread nD τ) arg6 fullShare (k1_pay4 x0 n)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

set_option maxHeartbeats 1000000 in
/-- k = 0: both accumulators are reset to zero and then added to; the output's buffer is handed back untouched. -/
theorem run1_A (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : cond1_0 i) (hc1 : ¬cond1_1 i)
    (x0 : Vec F S512x4096 .f32) (x1 : Vec F S256x4096 .bf16) (xi : Vec F S512x256 .f32)
    (K : PUnit → sProp 𝕄) :
    iprop(owns (c : Thread nD τ) arg2 fullShare x0 ∗ owns (c : Thread nD τ) arg3 fullShare x1 ∗ owns (c : Thread nD τ) arg4 fullShare xi ∗ (∃ a, owns (c : Thread nD τ) arg5 fullShare a) ∗ (∃ n, owns (c : Thread nD τ) arg6 fullShare n)
        ∗ (iprop(owns (c : Thread nD τ) arg2 fullShare x0 ∗ owns (c : Thread nD τ) arg3 fullShare x1 ∗ owns (c : Thread nD τ) arg4 fullShare xi ∗ owns (c : Thread nD τ) arg5 fullShare (k1_pay3 x0 x1 k1_pay1) ∗ owns (c : Thread nD τ) arg6 fullShare (k1_pay4 x0 k1_pay2)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%f2, %hf2, H2⟩, ⟨%a, %f3, -, H3⟩, ⟨%n, %f4, -, H4⟩, Hk⟩
  subst hf0 hf1 hf2
  sl_exec (disch := first | exact hc0 | exact hc1)
  sl_step
  iapply Hk
  sl_unfold_words
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    rw [read_store2_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store2_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

set_option maxHeartbeats 1000000 in
/-- k = 3 (so k ≠ 0): both accumulators are added to, and the output block is stored from them. -/
theorem run1_C (c : Dev nD) (E : Set ℕ) (i : grid1.Coords)
    (arg2 : Memref sig .tc .vmem S512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x1 .f32) (harg6 : arg6.IsWhole) (hc0 : ¬cond1_0 i) (hc1 : cond1_1 i)
    (x0 : Vec F S512x4096 .f32) (x1 : Vec F S256x4096 .bf16) (a : Vec F S512x256 .f32) (n : Vec F S512x1 .f32)
    (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare a ∗ owns (c : Thread nD τ) arg6 fullShare n
        ∗ (iprop(owns (c : Thread nD τ) arg2 fullShare x0 ∗ owns (c : Thread nD τ) arg3 fullShare x1 ∗ owns (c : Thread nD τ) arg4 fullShare (k1_pay5 (k1_pay4 x0 n) (k1_pay3 x0 x1 a)) ∗ owns (c : Thread nD τ) arg5 fullShare (k1_pay3 x0 x1 a) ∗ owns (c : Thread nD τ) arg6 fullShare (k1_pay4 x0 n)) -∗ K ⟨⟩))
      ⊢ wp frame (wpE (defs₀ (F := F)) Variants.none c none) E (cc1__logits_kernel i arg2 harg2 arg3 harg3 arg4 harg4 arg5 harg5 arg6 harg6) K := by
  simp only [cc1__logits_kernel_eq_skeleton]; unfold cc1__logits_kernel_skel
  unfold owns
  iintro ⟨⟨%f0, %hf0, H0⟩, ⟨%f1, %hf1, H1⟩, ⟨%d, %f2, -, H2⟩, ⟨%f3, %hf3, H3⟩, ⟨%f4, %hf4, H4⟩, Hk⟩
  subst hf0 hf1 hf3 hf4
  sl_exec (disch := first | exact hc0 | exact hc1)
  sl_step
  iapply Hk
  sl_unfold_words
  isplitl [H0]
  · iexists _; isplitr; · ipureintro; rfl
    iexact H0
  isplitl [H1]
  · iexists _; isplitr; · ipureintro; rfl
    iexact H1
  isplitl [H2]
  · iexists _; isplitr
    swap; · iexact H2
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  isplitl [H3]
  · iexists _; isplitr
    swap; · iexact H3
    ipureintro
    rw [read_store_A]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]
  iexists _; isplitr
  swap; · iexact H4
  ipureintro
  rw [read_store_N]; simp only [View.readAt_eq_ld, View.ld_unit_zero (S := S512x4096) hz2, View.ld_unit_zero (S := S256x4096) hz2, View.ld_unit_zero (S := S512x256) hz2, View.ld_unit_zero (S := S512x1) hz2, View.readCov_unit_zero (S := S512x256) _ hz2, View.readCov_unit_zero (S := S512x1) _ hz2]

end Cert.KernelIdeal.Hand

end
-- ==== Proof.HandKernelIdeal.Reg1.lean ====
/-
  The second launch's proof data: what the two carried accumulators hold after each grid point, the invariant that
  carries them from point to point, what each window's staging buffer holds after the body, and the body obligation
  at every point, by cases on the column tile k = t mod 4 (k = 0 resets, k = 3 also stores the output block).
-/
import proofs.«104831_j17901423690383_1_alg».proof.Proof.Gen.KernelIdeal.Launch
import proofs.«104831_j17901423690383_1_alg».proof.Proof.Gen.KernelIdeal.Skeleton
import proofs.«104831_j17901423690383_1_alg».proof.Proof.Gen.KernelIdeal.Points
import proofs.«104831_j17901423690383_1_alg».proof.Proof.HandKernelIdeal.Reg1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point's two input blocks at their literal types. -/
abbrev xblk (c : Dev nD) (t : Fin cfg1.N) : Vec F S512x4096 .f32 := iblk1 V c 0 t
abbrev wblk (c : Dev nD) (t : Fin cfg1.N) : Vec F S256x4096 .bf16 := iblk1 V c 1 t

/-- THE ACCUMULATION. The two accumulators after the body at position n: at a position with n mod 4 = 0 the update of the
    zero accumulators by the point's blocks, otherwise the update of what the position before left. -/
def accAt (c : Dev nD) : (n : ℕ) → n < cfg1.N → Vec F S512x256 .f32 × Vec F S512x1 .f32
  | 0, hn => (k1_pay3 (xblk V c ⟨0, hn⟩) (wblk V c ⟨0, hn⟩) k1_pay1, k1_pay4 (xblk V c ⟨0, hn⟩) k1_pay2)
  | n + 1, hn =>
    if (n + 1) % 4 = 0 then
      (k1_pay3 (xblk V c ⟨n + 1, hn⟩) (wblk V c ⟨n + 1, hn⟩) k1_pay1, k1_pay4 (xblk V c ⟨n + 1, hn⟩) k1_pay2)
    else
      (k1_pay3 (xblk V c ⟨n + 1, hn⟩) (wblk V c ⟨n + 1, hn⟩) (accAt c n (Nat.lt_of_succ_lt hn)).1,
        k1_pay4 (xblk V c ⟨n + 1, hn⟩) (accAt c n (Nat.lt_of_succ_lt hn)).2)

/-- At a point with k = 0 the accumulators restart from zero. -/
theorem accAt_reset (c : Dev nD) (t : Fin cfg1.N) (h0 : t.val % 4 = 0) :
    accAt V c t.val t.isLt = (k1_pay3 (xblk V c t) (wblk V c t) k1_pay1, k1_pay4 (xblk V c t) k1_pay2) := by
  obtain ⟨n, hn⟩ := t
  cases n with
  | zero => rfl
  | succ n => exact if_pos h0

/-- At a point with k ≠ 0 they continue from what the point before left. -/
theorem accAt_step (c : Dev nD) (t : Fin cfg1.N) (h0 : ¬t.val % 4 = 0) :
    accAt V c t.val t.isLt = (k1_pay3 (xblk V c t) (wblk V c t) (accAt V c (t.val - 1) (Nat.lt_of_le_of_lt (Nat.sub_le _ _) t.isLt)).1,
      k1_pay4 (xblk V c t) (accAt V c (t.val - 1) (Nat.lt_of_le_of_lt (Nat.sub_le _ _) t.isLt)).2) := by
  obtain ⟨n, hn⟩ := t
  cases n with
  | zero => exact absurd (Nat.zero_mod _) h0
  | succ n => exact if_neg h0

/-- The first launch's four staging buffers, which this launch never touches. -/
def restB (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the launch hands the body before the first point: those four buffers, the two accumulators at anything, the
    generator register (the launch's own invariant, regrouped). -/
theorem PhiA1_fwd (c : Dev nD) : (Pipeline.ΦA spec1 c : sProp 𝕄) ⊢ iprop(iprop(restB (F := F) c ∗ (∃ d, owns (c : Thread nD τ) scA fullShare d) ∗ (∃ d, owns (c : Thread nD τ) scN fullShare d)) ∗ (∃ r, prngReg c r)) := by
  rw [PhiA1_eq]; unfold restB
  iintro ⟨⟨H0, H1, H2, H3, HA, HN⟩, Hg⟩
  isplitl [H0 H1 H2 H3 HA HN]
  · isplitl [H0 H1 H2 H3]
    · isplitl [H0]; · iexact H0
      isplitl [H1]; · iexact H1
      isplitl [H2]; · iexact H2
      iexact H3
    isplitl [HA]; · iexact HA
    iexact HN
  iexact Hg
theorem PhiA1_bwd (c : Dev nD) : iprop(iprop(restB (F := F) c ∗ (∃ d, owns (c : Thread nD τ) scA fullShare d) ∗ (∃ d, owns (c : Thread nD τ) scN fullShare d)) ∗ (∃ r, prngReg c r)) ⊢ (Pipeline.ΦA spec1 c : sProp 𝕄) := by
  rw [PhiA1_eq]; unfold restB
  iintro ⟨⟨⟨H0, H1, H2, H3⟩, HA, HN⟩, Hg⟩
  isplitl [H0 H1 H2 H3 HA HN]
  · isplitl [H0]; · iexact H0
    isplitl [H1]; · iexact H1
    isplitl [H2]; · iexact H2
    isplitl [H3]; · iexact H3
    isplitl [HA]; · iexact HA
    iexact HN
  iexact Hg
theorem PhiA1_eq' (c : Dev nD) : (Pipeline.ΦA spec1 c : sProp 𝕄) = iprop(iprop(restB (F := F) c ∗ (∃ d, owns (c : Thread nD τ) scA fullShare d) ∗ (∃ d, owns (c : Thread nD τ) scN fullShare d)) ∗ (∃ r, prngReg c r)) :=
  Idealize.SL.BI.Entails.antisymm (PhiA1_fwd (F := F) c) (PhiA1_bwd (F := F) c)

/-- The invariant before position n: before the first point the launch's own; afterwards the two accumulators at what the
    point before left in them. -/
def PhiS (c : Dev nD) : (n : ℕ) → n ≤ cfg1.N → sProp 𝕄
  | 0, _ => Pipeline.ΦA spec1 c
  | n + 1, hn => iprop(iprop(restB (F := F) c ∗ owns (c : Thread nD τ) scA fullShare (accAt V c n hn).1 ∗ owns (c : Thread nD τ) scN fullShare (accAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(restB (F := F) c ∗ owns (c : Thread nD τ) scA fullShare (accAt V c n hn).1 ∗ owns (c : Thread nD τ) scN fullShare (accAt V c n hn).2) ∗ (∃ r, prngReg c r)) := rfl

theorem PhiS_pos (c : Dev nD) (n : ℕ) (h : n ≤ cfg1.N) (hz : n ≠ 0) :
    PhiS V c n h = iprop(iprop(restB (F := F) c ∗ owns (c : Thread nD τ) scA fullShare (accAt V c (n - 1) (by omega)).1 ∗ owns (c : Thread nD τ) scN fullShare (accAt V c (n - 1) (by omega)).2) ∗ (∃ r, prngReg c r)) := by
  cases n with
  | zero => exact absurd rfl hz
  | succ n => rfl

/-- The launch's proof data on core c: the arrays as found; after the body at point t each input's buffer at its block
    and the output's at exp (acc / max (count, 1)) of the accumulators after that point (read only where k = 3). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt V c t.val t.isLt).2 (accAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt V c t.val t.isLt).2 (accAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 4 says which case the point is in; the
    invariant hands the body the accumulators at what the point before left (at anything before the first point) and
    takes them back at this point's contents; where k ≠ 3 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt_reset V c t h0]; dsimp only
    by_cases hz : t.val = 0
    · rw [PhiS_castSucc V c t, PhiS_zero V c _ _ hz, PhiA1_eq']
      iintro ⟨⟨⟨HR, HA, HN⟩, Hg⟩, Ho, ⟨%d0, H0⟩, ⟨%d1, H1⟩, ⟨%d2, H2⟩⟩
      iapply (run1_A c Set.univ (grid1.coords t) _ (hs1_0 t) _ (hs1_1 t) _ (hs1_2 t) _ (Memref.isWhole_whole _) _ (Memref.isWhole_whole _) hc0 hc1 (xblk V c t) (wblk V c t) ((dat1 V c).before 2 t d2) _)
      isplitl [H0]; · iexact H0
      isplitl [H1]; · iexact H1
      isplitl [H2]; · iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR, HA, HN⟩, Hg⟩, Ho, ⟨%d0, H0⟩, ⟨%d1, H1⟩, ⟨%d2, H2⟩⟩
      iapply (run1_A c Set.univ (grid1.coords t) _ (hs1_0 t) _ (hs1_1 t) _ (hs1_2 t) _ (Memref.isWhole_whole _) _ (Memref.isWhole_whole _) hc0 hc1 (xblk V c t) (wblk V c t) ((dat1 V c).before 2 t d2) _)
      isplitl [H0]; · iexact H0
      isplitl [H1]; · iexact H1
      isplitl [H2]; · iexact H2
      isplitl [HA]; · iexists _; iexact HA
      isplitl [HN]; · iexists _; iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [accAt_step V c t h0]; dsimp only
      rw [PhiS_castSucc V c t, PhiS_pos V c _ _ hz]
      iintro ⟨⟨⟨HR, HA, HN⟩, Hg⟩, Ho, ⟨%d0, H0⟩, ⟨%d1, H1⟩, ⟨%d2, H2⟩⟩
      iapply (run1_C c Set.univ (grid1.coords t) _ (hs1_0 t) _ (hs1_1 t) _ (hs1_2 t) _ (Memref.isWhole_whole _) _ (Memref.isWhole_whole _) hc0 hc1 (xblk V c t) (wblk V c t) _ _ _)
      isplitl [H0]; · iexact H0
      isplitl [H1]; · iexact H1
      isplitl [H2]; · iexists _; iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      rw [accAt_step V c t h0]; dsimp only
      rw [PhiS_castSucc V c t, PhiS_pos V c _ _ hz]
      iintro ⟨⟨⟨HR, HA, HN⟩, Hg⟩, Ho, ⟨%d0, H0⟩, ⟨%d1, H1⟩, ⟨%d2, H2⟩⟩
      iapply (run1_B c Set.univ (grid1.coords t) _ (hs1_0 t) _ (hs1_1 t) _ (hs1_2 t) _ (Memref.isWhole_whole _) _ (Memref.isWhole_whole _) hc0 hc1 (xblk V c t) (wblk V c t) ((dat1 V c).before 2 t d2) _ _ _)
      isplitl [H0]; · iexact H0
      isplitl [H1]; · iexact H1
      isplitl [H2]; · iexact H2
      isplitl [HA]; · iexact HA
      isplitl [HN]; · iexact HN
      iintro ⟨H0, H1, H2, HA, HN⟩
      isplitl [HR HA HN Hg]
      · isplitl [HR HA HN]
        · isplitl [HR]; · iexact HR
          isplitl [HA]; · iexact HA
          iexact HN
        iexact Hg
      isplitl [Ho]; · iexact Ho
      isplitl [H0]; · iexact H0
      isplitl [H1]; · iexact H1
      iexists _; iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's own back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq']
  iintro ⟨⟨HR, HA, HN⟩, Hg⟩
  isplitl [HR HA HN]
  · isplitl [HR]; · iexact HR
    isplitl [HA]; · iexists _; iexact HA
    iexists _; iexact HN
  iexact Hg

end Cert.KernelIdeal.Hand

end
-- ==== Proof.HandKernelIdeal.Run.lean ====
/-
  The whole program: the two launches one after the other. The buffers' contents at the two boundaries are a fold
  from the launch memory — after the first launch the log-weight array holds what its write-backs leave, after the
  second the result array does — and each argument array is read back through the fold to its launch contents. Each
  launch is a segment entered from "every unscoped buffer at the boundary's contents" and left at the next boundary's;
  the run of the two segments ends with the result array at the second launch's last write-back state and the two
  arguments as launched.
-/
import proofs.«104831_j17901423690383_1_alg».proof.Proof.Gen.KernelIdeal.Launch
import proofs.«104831_j17901423690383_1_alg».proof.Proof.Gen.KernelIdeal.Skeleton
import proofs.«104831_j17901423690383_1_alg».proof.Proof.Gen.KernelIdeal.Points
import proofs.«104831_j17901423690383_1_alg».proof.Proof.HandKernelIdeal.Reg0
import proofs.«104831_j17901423690383_1_alg».proof.Proof.HandKernelIdeal.Reg1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: the first launch's entry contents. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- After the first launch: its arrays at what its write-backs leave, every other buffer as entered. -/
def W2 (c : Dev nD) : Valuation τ sig (Elt F) :=
  Pipeline.withArrays spec0 c (W0 m ρ c) fun w => (dat0 (V0r m ρ) c).arrAt w cfg0.N
theorem W2_arr (c : Dev nD) (w : Fin cfg0.W) :
    W2 m ρ c (Proc.devRef .tc (Pipeline.arrRef spec0 w)) = (dat0 (V0r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2r : (c : Dev nD) → (b : Ref sig .tc) → Buf (Elt F) ((c : Thread nD τ).loc b) := fun c b => W2 m ρ c b
theorem hF0 (c : Dev nD) (w : Fin cfg0.W) : (dat0 (V0r m ρ) c).arrAt w cfg0.N = V2r m ρ c (Pipeline.arrRef spec0 w) :=
  (W2_arr m ρ c w).symm
theorem hrest0 (c : Dev nD) : ∀ b, b ∉ Finset.univ.image (Pipeline.arrRef spec0) → V2r m ρ c b = V0r m ρ c b :=
  fun b hb => W2_of_ne m ρ c b fun w e => hb (Finset.mem_image.mpr ⟨w, Finset.mem_univ _, e⟩)

/-- After the second launch: its arrays at what its write-backs leave, every other buffer as entered. -/
def W4 (c : Dev nD) : Valuation τ sig (Elt F) :=
  Pipeline.withArrays spec1 c (W2 m ρ c) fun w => (dat1 (V2r m ρ) c).arrAt w cfg1.N
theorem W4_arr (c : Dev nD) (w : Fin cfg1.W) :
    W4 m ρ c (Proc.devRef .tc (Pipeline.arrRef spec1 w)) = (dat1 (V2r m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4r : (c : Dev nD) → (b : Ref sig .tc) → Buf (Elt F) ((c : Thread nD τ).loc b) := fun c b => W4 m ρ c b
theorem hF1 (c : Dev nD) (w : Fin cfg1.W) : (dat1 (V2r m ρ) c).arrAt w cfg1.N = V4r m ρ c (Pipeline.arrRef spec1 w) :=
  (W4_arr m ρ c w).symm
theorem hrest1 (c : Dev nD) : ∀ b, b ∉ Finset.univ.image (Pipeline.arrRef spec1) → V4r m ρ c b = V2r m ρ c b :=
  fun b hb => W4_of_ne m ρ c b fun w e => hb (Finset.mem_image.mpr ⟨w, Finset.mem_univ _, e⟩)

/-! ## The arguments end as launched, and the result is the second launch's output array -/

/-- The 0/1 matrix is an input window of the second launch and untouched by the first. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2r m ρ) c).arrAt_in 0 rfl _).trans (A_eq1 (V2r m ρ) c 0))
    _ = W0 m ρ c (Proc.devRef .tc main_arg0) := W2_of_ne m ρ c main_arg0 (by decide)
    _ = m ((c : Thread nD τ).loc main_arg0) := rfl

/-- The raw weights are the first launch's input window and untouched by the second. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0r m ρ) c).arrAt_in 0 rfl _).trans (A_eq0 (V0r m ρ) c 0))
    _ = m ((c : Thread nD τ).loc main_arg1) := rfl

/-- The result array is the second launch's output window's array after its last write-back. -/
theorem W4_main_v1 (c : Dev nD) : W4 m ρ c (Proc.devRef .tc main_v1) = (dat1 (V2r m ρ) c).arrAt 2 cfg1.N :=
  W4_arr m ρ c 2

/-- The log-weight array the second launch reads is the first launch's output window's array after its last write-back. -/
theorem V2r_main_v0 (c : Dev nD) : V2r m ρ c main_v0 = (dat0 (V0r m ρ) c).arrAt 1 cfg0.N :=
  W2_arr m ρ c 1

/-- The 0/1 matrix the second launch reads is the argument. -/
theorem V2r_main_arg0 (c : Dev nD) : V2r m ρ c main_arg0 = m ((c : Thread nD τ).loc main_arg0) :=
  W2_of_ne m ρ c main_arg0 (by decide)

/-- The raw weights the first launch reads are the argument. -/
theorem V0r_main_arg1 (c : Dev nD) : V0r m ρ c main_arg1 = m ((c : Thread nD τ).loc main_arg1) := rfl

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch: entered from every unscoped buffer at the launch memory, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W2`, left at `W4`; its invariant takes the launch's
    own in before the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2r m ρ) c
    unfold Pipeline.ΦA at h
    iintro ⟨Hp, -, Hr⟩
    iapply (show iprop(Pipeline.scopedRest spec1 c ∗ ∃ r, prngReg c r) ⊢ (pdats m ρ 1 c).Φ 0 from h)
    isplitl [Hr]; · iexact Hr
    iexact Hp
  hout c := by
    rw [Pipeline.ownSems0_none]
    have h := hout1 (V2r m ρ) c
    unfold Pipeline.ΦA at h
    iintro HP
    ihave H := (show (pdats m ρ 1 c).Φ (Fin.last _) ⊢ iprop(Pipeline.scopedRest spec1 c ∗ ∃ r, prngReg c r) from h) $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    the result array at the second launch's output array after its last write-back and the two arguments as launched. -/
theorem run_main : θ_run defs (onTc (τ := τ) (main (F := F))) ⟨m, fun _ => 0, ρ⟩ (fun r => ∀ c : Dev nD,
      r.2.mem ((c.tc : Thread nD τ).loc main_v1) = (dat1 (V2r m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
       (h c _ (mem_uc main_arg0 (by decide))).trans (W4_main_arg0 m ρ c),
       (h c _ (mem_uc main_arg1 (by decide))).trans (W4_main_arg1 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  What both programs compute, as one function of the two argument arrays over the extended reals.
  With b the [2048, 16384] 0/1 matrix and raw the [256, 16384] raw weights, the log-weight is
  lw(v, d) = log (max ε (10 · σ (raw (v, d)))) and the result at (r, v) is
  exp ((∑_d b(r, d) · lw(v, d)) / max (∑_d b(r, d)) 1): the geometric mean of the weights the row's active entries select.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SB : Shape := ⟨2, ![2048, 16384]⟩
abbrev SW : Shape := ⟨2, ![256, 16384]⟩
abbrev SO : Shape := ⟨2, ![2048, 256]⟩

/-- Index constructors at the three literal shapes. -/
abbrev ixB (r : Fin 2048) (d : Fin 16384) : SB.Idx := ix2 r d
abbrev ixW (v : Fin 256) (d : Fin 16384) : SW.Idx := ix2 v d
abbrev ixO (r : Fin 2048) (v : Fin 256) : SO.Idx := ix2 r v

/-- The three float literals of the two programs, by their words: 10.0, f32(1e-8) and 1.0. -/
abbrev ten : EReal := Ideal.ofBits .f32 0x41200000#32
abbrev eps : EReal := Ideal.ofBits .f32 0x322BCC77#32
abbrev one : EReal := Ideal.ofBits .f32 0x3F800000#32

/-- The log-weight of vocabulary entry v at dendrite d. -/
def lw (raw : SW.Idx → EReal) (v : Fin 256) (d : Fin 16384) : EReal :=
  Ideal.log (max eps (ten * Ideal.logistic (raw (ixW v d))))

/-- The masked log-sum of row r against vocabulary entry v. -/
def logSum (b : SB.Idx → EReal) (raw : SW.Idx → EReal) (r : Fin 2048) (v : Fin 256) : EReal :=
  ∑ d : Fin 16384, b (ixB r d) * lw raw v d

/-- The number of active entries of row r. -/
def nAct (b : SB.Idx → EReal) (r : Fin 2048) : EReal := ∑ d : Fin 16384, b (ixB r d)

/-- The result: exp (logSum / max nAct 1), index by index. -/
def G (b : SB.Idx → EReal) (raw : SW.Idx → EReal) : SO.Idx → EReal := fun j =>
  Ideal.exp (Ideal.div (logSum b raw (j 0) (j 1)) (max (nAct b (j 0)) one))

end Cert.Spec

end
-- ==== Proof.HandKernelIdeal.Pay.lean ====
/-
  The kernels' arithmetic read at an index, over the extended reals: the first launch's map, the second launch's two
  accumulator updates (a block product added to the product accumulator, a block's row sums added to the count
  accumulator) and its final quotient's exponential.
-/
import proofs.«104831_j17901423690383_1_alg».proof.Proof.Gen.KernelIdeal.Skeleton
import proofs.«104831_j17901423690383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

/-! ### The layout operations and the two contractions, each read at an index -/

section Layout
variable {α : Type}

/-- A [512] array cast to [512, 1] reads, at (p, 0), the operand at p. -/
theorem cast_col_apply (x : S512.Idx → α) (h : S512.ShapeCasts S512x1) (p : Fin 512) :
    shapeCast S512x1 x h (ix2 p (0 : Fin 1)) = x (ix1 p) :=
  shapeCast_apply x h _ _ (by
    rw [Shape.rowMajor_val_two, Shape.rowMajor_val_one]
    show p.val = p.val * 1 + 0
    rw [Nat.mul_one, Nat.add_zero])

/-- A [512, 1] column broadcast to [512, 256] reads, at (p, q), the column at (p, 0). -/
theorem bcast_col_apply (x : S512x1.Idx → α) (h : S512x1.Broadcasts S512x256) (p : Fin 512) (q : Fin 256) :
    broadcastTo S512x256 x h (ix2 p q) = x (ix2 p (0 : Fin 1)) := by
  refine broadcastTo_apply x h (ix2 p q) (ix2 p (0 : Fin 1)) fun ax => ?_
  match ax with
  | ⟨0, _⟩ =>
    show p.val = if (512 : Nat) = 1 then 0 else p.val
    rw [if_neg (by decide)]
  | ⟨1, _⟩ => rfl

end Layout

/-- The sum along the lanes of a [512, 4096] block, read at row p. -/
theorem laneSum_apply (x : FVec Ideal S512x4096 .f32) (h : S512x4096.Reduces [1] S512) (hφ : FKind.Formats .f32)
    (hacc : (0x00000000#32 : BitVec 32) = 0x00000000#32) (p : Fin 512) :
    multiReduction (F := Ideal) .add [1] S512 x 0x00000000#32 h hφ hacc (ix1 p) = ∑ j : Fin 4096, x (ix2 p j) := by
  refine (Ideal.multiReduction_add_single x 0x00000000#32 h hφ hacc (ix1 p)).trans ?_
  refine Finset.sum_congr rfl fun k _ => ?_
  exact congrArg x (funext fun a => Fin.ext (by match a with | ⟨0, _⟩ => rfl | ⟨1, _⟩ => rfl))

theorem lhs_dot_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_dot_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem rhs_dot_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_dot_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The block product into the zero splat, read at (p, q): row p of the left block against row q of the right one. -/
theorem blockProduct_apply (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ k : Fin 4096, l (ix2 p k) * r (ix2 q k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-! ### The six payloads -/

/-- The first launch's stored value at (v, j): log (max ε (10 · σ x)), the cast to bf16 the identity here. -/
theorem pay0_apply (x0 : Vec Ideal S256x4096 .f32) (v : Fin 256) (j : Fin 4096) :
    k0_pay1 (F := Ideal) x0 (ix2 v j) = Ideal.log (max eps (ten * Ideal.logistic (x0 (ix2 v j)))) := rfl

/-- The zero the product accumulator restarts from. -/
theorem pay1_apply (p : Fin 512) (q : Fin 256) : k1_pay1 (F := Ideal) (ix2 p q) = 0 := by
  unfold k1_pay1
  rw [shapeCast_self]
  exact Ideal.ofBits_zero_f32

/-- The zero the count accumulator restarts from. -/
theorem pay2_apply (p : Fin 512) : k1_pay2 (F := Ideal) (ix2 p (0 : Fin 1)) = 0 := by
  unfold k1_pay2
  rw [shapeCast_self]
  exact Ideal.ofBits_zero_f32

/-- The product accumulator's update at (p, q): the old value plus the block's row p against the log-weight block's row q. -/
theorem pay3_apply (x0 : Vec Ideal S512x4096 .f32) (x1 : Vec Ideal S256x4096 .bf16) (a : Vec Ideal S512x256 .f32) (p : Fin 512) (q : Fin 256) :
    k1_pay3 (F := Ideal) x0 x1 a (ix2 p q) = a (ix2 p q) + ∑ j : Fin 4096, x0 (ix2 p j) * x1 (ix2 q j) := by
  unfold k1_pay3
  rw [shapeCast_self, shapeCast_self, addf_apply, blockProduct_apply]
  rfl

/-- The count accumulator's update at row p: the old value plus the block's row sum. -/
theorem pay4_apply (x0 : Vec Ideal S512x4096 .f32) (n : Vec Ideal S512x1 .f32) (p : Fin 512) :
    k1_pay4 (F := Ideal) x0 n (ix2 p (0 : Fin 1)) = n (ix2 p (0 : Fin 1)) + ∑ j : Fin 4096, x0 (ix2 p j) := by
  unfold k1_pay4
  rw [shapeCast_self, addf_apply, cast_col_apply]
  exact congrArg (n (ix2 p (0 : Fin 1)) + ·) (laneSum_apply x0 _ _ _ p)

/-- The stored output at (p, q): exp (acc / max (count, 1)). -/
theorem pay5_apply (n : Vec Ideal S512x1 .f32) (a : Vec Ideal S512x256 .f32) (p : Fin 512) (q : Fin 256) :
    k1_pay5 (F := Ideal) n a (ix2 p q) = Ideal.exp (Ideal.div (a (ix2 p q)) (max (n (ix2 p (0 : Fin 1))) one)) := by
  unfold k1_pay5
  show Ideal.exp (Ideal.div (a (ix2 p q)) (broadcastTo S512x256 _ broadcasts_S512x1_S512x256 (ix2 p q))) = _
  rw [bcast_col_apply]
  rfl

end Cert.KernelIdeal.Hand

end
-- ==== Proof.HandKernelIdeal.Pts.lean ====
/-
  The grid points and the long arrays' coordinates by tile: point t of the first launch's 4 points; point 4 i + k of the
  second launch's 4 × 4 grid (row tile i, column tile k); row 512 i + p of 2048; column 4096 k + j of 16384.
-/
import proofs.«104831_j17901423690383_1_alg».proof.Proof.Gen.KernelIdeal.Launch
import proofs.«104831_j17901423690383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

abbrev pt0 (t : Fin 4) : Fin cfg0.N := ⟨t.val, by rw [show cfg0.N = 4 from N_0]; exact t.isLt⟩
abbrev pt1 (i k : Fin 4) : Fin cfg1.N := ⟨4 * i.val + k.val, by rw [show cfg1.N = 16 from N_1]; omega⟩
abbrev rowOf (i : Fin 4) (p : Fin 512) : Fin 2048 := ⟨512 * i.val + p.val, by omega⟩
abbrev colOf (k : Fin 4) (j : Fin 4096) : Fin 16384 := ⟨4096 * k.val + j.val, by omega⟩

end Cert.KernelIdeal.Hand

end
-- ==== Proof.HandKernelIdeal.Blk0.lean ====
/-
  The first launch: point t reads and writes columns 4096 t .. 4096 t + 4095 of all 256 rows, so after the launch the
  log-weight array at (v, 4096 t + j) holds what point t stored at (v, j), and the block point t read is the raw
  weights at those columns.
-/
import proofs.«104831_j17901423690383_1_alg».proof.Proof.HandKernelIdeal.Reg0
import proofs.«104831_j17901423690383_1_alg».proof.Proof.HandKernelIdeal.Pts
import proofs.«104831_j17901423690383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

variable {F : FTy → Type} [FloatOps F]
variable (V : (c : Dev nD) → (b : Ref sig .tc) → Buf (Elt F) ((c : Thread nD τ).loc b))

/-- The zero offsets of a whole [256, 4096] block. -/
theorem offs0_zero : (![0, 0] : Fin 2 → Nat) = fun _ => 0 := funext fun a => by fin_cases a <;> rfl

/-- Both windows of the first launch sit at row block 0 and at column block t, at every point t. -/
theorem cols0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The input block at point t, at y, is the raw weights at row y₀ and column 4096 t + y₁. -/
theorem iblk0_at (c : Dev nD) (t : Fin cfg0.N) (y : S256x4096.Idx) (i : S256x16384.Idx)
    (h0 : (i 0).val = (y 0).val) (h1 : (i 1).val = 4096 * t.val + (y 1).val) :
    (iblk0 V c 0 t : Vec F S256x4096 .f32) y = (V c main_arg1 : Vec F S256x16384 .f32) i := by
  obtain ⟨e0, e1, -, -⟩ := cols0 t
  unfold iblk0
  rw [View.read_apply]
  show V c main_arg1 (((cfg0.win 0).blk t).view.emb y) = V c main_arg1 i
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 4096 + 1 * (y 1).val = (i 1).val; rw [e1, h1]; omega

/-- The first launch's input block at point t, at (v, j), is the raw weights at (v, 4096 t + j). -/
theorem iblk0_apply (c : Dev nD) (t : Fin 4) (v : Fin 256) (j : Fin 4096) :
    (iblk0 V c 0 (pt0 t) : Vec F S256x4096 .f32) (ix2 v j) = (V c main_arg1 : Vec F S256x16384 .f32) (ix2 v (colOf t j)) :=
  iblk0_at V c (pt0 t) (ix2 v j) (ix2 v (colOf t j)) rfl rfl

/-- What point t writes back is the map of the block it read. -/
theorem flushed0_1 (c : Dev nD) (t : Fin cfg0.N) :
    ((dat0 V c).flushed 1 t : Vec F S256x4096 .bf16) = k0_pay1 (iblk0 V c 0 t : Vec F S256x4096 .f32) := by
  show (cfg0.win 1).cut (grid0.coords t) ((dat0 V c).after 1 t) = _
  rw [after0_1]
  unfold out0_1
  rw [View.canon_unit_zero (S := S256x4096) offs0_zero _ _]
  simp only [View.ld_unit_zero (S := S256x4096) offs0_zero]
  rfl

/-- An index of the log-weight array is in point t's block iff each coordinate is in the block's range on its axis. -/
theorem mem_blk0_1 (t : Fin cfg0.N) (i : S256x16384.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Different points write different column blocks. -/
theorem disjoint0_1 (t t' : Fin cfg0.N) (hf : (cfg0.win 1).flush t = true) (hf' : (cfg0.win 1).flush t' = true) (hne : t ≠ t') :
    Disjoint ((cfg0.win 1).blk t).view.set ((cfg0.win 1).blk t').view.set := by
  rw [Finset.disjoint_left]
  intro i hi hi'
  rw [mem_blk0_1] at hi hi'
  have b : win0_1.index t (1 : Fin 2) * 4096 ≤ (i 1).val ∧ (i 1).val < win0_1.index t (1 : Fin 2) * 4096 + 4096 := hi 1
  have b' : win0_1.index t' (1 : Fin 2) * 4096 ≤ (i 1).val ∧ (i 1).val < win0_1.index t' (1 : Fin 2) * 4096 + 4096 := hi' 1
  obtain ⟨-, -, -, e⟩ := cols0 t
  obtain ⟨-, -, -, e'⟩ := cols0 t'
  have : t.val ≠ t'.val := fun h => hne (Fin.ext h)
  omega

/-- After the first launch the log-weight array at row y₀ and column 4096 t + y₁ holds what point t stored at y. -/
theorem arr0_at (c : Dev nD) (t : Fin cfg0.N) (y : S256x4096.Idx) (i : S256x16384.Idx)
    (h0 : (i 0).val = (y 0).val) (h1 : (i 1).val = 4096 * t.val + (y 1).val) :
    ((dat0 V c).arrAt 1 cfg0.N : Vec F S256x16384 .bf16) i = k0_pay1 (iblk0 V c 0 t : Vec F S256x4096 .f32) y := by
  obtain ⟨-, -, e0, e1⟩ := cols0 t
  have hi : ((cfg0.win 1).blk t).view.emb y = i := by
    funext a
    apply Fin.ext
    match a with
    | ⟨0, _⟩ => show win0_1.index t (0 : Fin 2) * 256 + 1 * (y 0).val = (i 0).val; rw [e0, h0]; omega
    | ⟨1, _⟩ => show win0_1.index t (1 : Fin 2) * 4096 + 1 * (y 1).val = (i 1).val; rw [e1, h1]; omega
  have h := (dat0 V c).arrAt_emb_eq_flushed 1 (disjoint0_1) t (flush0_1 t) y
  rw [hi] at h
  rw [h, flushed0_1]
  rfl

/-- After the first launch the log-weight array at (v, 4096 t + j) holds what point t stored at (v, j). -/
theorem arr0_apply (c : Dev nD) (t : Fin 4) (v : Fin 256) (j : Fin 4096) :
    ((dat0 V c).arrAt 1 cfg0.N : Vec F S256x16384 .bf16) (ix2 v (colOf t j))
      = k0_pay1 (iblk0 V c 0 (pt0 t) : Vec F S256x4096 .f32) (ix2 v j) :=
  arr0_at V c (pt0 t) (ix2 v j) (ix2 v (colOf t j)) rfl rfl

end Cert.KernelIdeal.Hand

end
-- ==== Proof.HandKernelIdeal.Blk1.lean ====
/-
  The second launch: point 4 i + k reads rows 512 i .. 512 i + 511, columns 4096 k .. 4096 k + 4095 of the 0/1 matrix
  and the same columns of the log-weights; the output block of row tile i is written back only at k = 3, so the result
  array's rows 512 i .. 512 i + 511 hold what point 4 i + 3 stored.
-/
import proofs.«104831_j17901423690383_1_alg».proof.Proof.HandKernelIdeal.Reg1
import proofs.«104831_j17901423690383_1_alg».proof.Proof.HandKernelIdeal.Pts
import proofs.«104831_j17901423690383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

variable {F : FTy → Type} [FloatOps F]
variable (V : (c : Dev nD) → (b : Ref sig .tc) → Buf (Elt F) ((c : Thread nD τ).loc b))

/-- The three windows' block indices at point t = 4 i + k, decided over the grid: the 0/1 matrix moves with (i, k), the
    log-weights with (0, k), the result with (i, 0). -/
theorem tile_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = t.val / 4 ∧ win1_2.index t (1 : Fin 2) = 0 :=
  (by decide +kernel : ∀ t : Fin grid1.N, _)

/-- An element of the 0/1 block at point t is the matrix's element 512 (t / 4) rows down and 4096 (t mod 4) columns along. -/
theorem xblk_read (c : Dev nD) (t : Fin cfg1.N) (y : S512x4096.Idx) (r : S2048x16384.Idx)
    (h0 : (r 0).val = 512 * (t.val / 4) + (y 0).val) (h1 : (r 1).val = 4096 * (t.val % 4) + (y 1).val) :
    xblk V c t y = (V c main_arg0 : Vec F S2048x16384 .f32) r := by
  obtain ⟨e0, e1, -⟩ := tile_facts1 t
  show iblk1 V c 0 t y = _
  unfold iblk1
  rw [View.read_apply]
  show V c main_arg0 (((cfg1.win 0).blk t).view.emb y) = V c main_arg0 r
  congr 1
  funext a
  apply Fin.ext
  match a with
  | ⟨0, _⟩ => show win1_0.index t (0 : Fin 2) * 512 + 1 * (y 0).val = (r 0).val; rw [e0, h0]; omega
  | ⟨1, _⟩ => show win1_0.index t (1 : Fin 2) * 4096 + 1 * (y 1).val = (r 1).val; rw [e1, h1]; omega

/-- An element of the log-weight block at point t is the array's element 4096 (t mod 4) columns along, same row. -/
theorem wblk_read (c : Dev nD) (t : Fin cfg1.N) (y : S256x4096.Idx) (r : S256x16384.Idx)
    (h0 : (r 0).val = (y 0).val) (h1 : (r 1).val = 4096 * (t.val % 4) + (y 1).val) :
    wblk V c t y = (V c main_v0 : Vec F S256x16384 .bf16) r := by
  obtain ⟨-, -, e0, e1, -⟩ := tile_facts1 t
  show iblk1 V c 1 t y = _
  unfold iblk1
  rw [View.read_apply]
  show V c main_v0 (((cfg1.win 1).blk t).view.emb y) = V c main_v0 r
  congr 1
  funext a
  apply Fin.ext
  match a with
  | ⟨0, _⟩ => show win1_1.index t (0 : Fin 2) * 256 + 1 * (y 0).val = (r 0).val; rw [e0, h0]; omega
  | ⟨1, _⟩ => show win1_1.index t (1 : Fin 2) * 4096 + 1 * (y 1).val = (r 1).val; rw [e1, h1]; omega

/-- The second launch's 0/1 block at point (i, k), at (p, j), is the matrix at (512 i + p, 4096 k + j). -/
theorem xblk_apply (c : Dev nD) (i k : Fin 4) (p : Fin 512) (j : Fin 4096) :
    xblk V c (pt1 i k) (ix2 p j) = (V c main_arg0 : Vec F S2048x16384 .f32) (ix2 (rowOf i p) (colOf k j)) := by
  refine xblk_read V c (pt1 i k) (ix2 p j) (ix2 (rowOf i p) (colOf k j)) ?_ ?_
  · show 512 * i.val + p.val = 512 * ((4 * i.val + k.val) / 4) + p.val
    have := k.isLt; omega
  · show 4096 * k.val + j.val = 4096 * ((4 * i.val + k.val) % 4) + j.val
    have := k.isLt; omega

/-- Its log-weight block at point (i, k), at (q, j), is the log-weight array at (q, 4096 k + j). -/
theorem wblk_apply (c : Dev nD) (i k : Fin 4) (q : Fin 256) (j : Fin 4096) :
    wblk V c (pt1 i k) (ix2 q j) = (V c main_v0 : Vec F S256x16384 .bf16) (ix2 q (colOf k j)) := by
  refine wblk_read V c (pt1 i k) (ix2 q j) (ix2 q (colOf k j)) rfl ?_
  show 4096 * k.val + j.val = 4096 * ((4 * i.val + k.val) % 4) + j.val
  have := k.isLt; omega

/-- An index of the result array lies in point t's block iff each coordinate lies in the block's range on its axis. -/
theorem mem_oblk (t : Fin cfg1.N) (r : S2048x256.Idx) :
    r ∈ ((cfg1.win 2).blk t).view.set ↔ ∀ a : Fin 2, win1_2.index t a * S512x256.size a ≤ (r a).val ∧ (r a).val < win1_2.index t a * S512x256.size a + S512x256.size a := by
  show r ∈ ((View.whole main_v1).slice (win1_2.rect t)).set ↔ _
  rw [View.set_slice_whole, Rect.mem_set_unit]
  exact Iff.rfl

/-- Two different points that write the result back have k = 3 both, so different row tiles: their blocks do not meet. -/
theorem oblk_disjoint : ∀ t t' : Fin cfg1.N, (cfg1.win 2).flush t = true → (cfg1.win 2).flush t' = true → t ≠ t' →
    Disjoint ((cfg1.win 2).blk t).view.set ((cfg1.win 2).blk t').view.set := by
  intro t t' hf hf' hne
  rw [Finset.disjoint_left]
  intro r hr hr'
  rw [mem_oblk] at hr hr'
  have h3 : t.val % 4 = 3 := (flush1_2 t).mp hf
  have h3' : t'.val % 4 = 3 := (flush1_2 t').mp hf'
  obtain ⟨-, -, -, -, e, -⟩ := tile_facts1 t
  obtain ⟨-, -, -, -, e', -⟩ := tile_facts1 t'
  have b : win1_2.index t (0 : Fin 2) * 512 ≤ (r 0).val ∧ (r 0).val < win1_2.index t (0 : Fin 2) * 512 + 512 := hr 0
  have b' : win1_2.index t' (0 : Fin 2) * 512 ≤ (r 0).val ∧ (r 0).val < win1_2.index t' (0 : Fin 2) * 512 + 512 := hr' 0
  rw [e] at b
  rw [e'] at b'
  exact hne (Fin.ext (by omega))

/-- Under the block of a point t with k = 3 the result array holds what t stored: 512 (t / 4) rows down, same column. -/
theorem arr1_read (c : Dev nD) (t : Fin cfg1.N) (ht : t.val % 4 = 3) (y : S512x256.Idx) (r : S2048x256.Idx)
    (h0 : (r 0).val = 512 * (t.val / 4) + (y 0).val) (h1 : (r 1).val = (y 1).val) :
    ((dat1 V c).arrAt 2 cfg1.N : Vec F S2048x256 .f32) r
      = k1_pay5 (accAt V c t.val t.isLt).2 (accAt V c t.val t.isLt).1 y := by
  have hf : (cfg1.win 2).flush t = true := (flush1_2 t).mpr ht
  obtain ⟨-, -, -, -, e0, e1⟩ := tile_facts1 t
  have hr : r = ((cfg1.win 2).blk t).view.emb y := by
    funext a
    apply Fin.ext
    match a with
    | ⟨0, _⟩ => show (r 0).val = win1_2.index t (0 : Fin 2) * 512 + 1 * (y 0).val; rw [e0, h0]; omega
    | ⟨1, _⟩ => show (r 1).val = win1_2.index t (1 : Fin 2) * 256 + 1 * (y 1).val; rw [e1, h1]; omega
  rw [hr]
  refine ((dat1 V c).arrAt_emb_eq_flushed 2 oblk_disjoint t hf y).trans ?_
  show (cfg1.win 2).cut (grid1.coords t) ((dat1 V c).after 2 t) y = _
  rw [after1_2]
  rfl

/-- After the second launch the result array at (512 i + p, v) holds what point (i, 3) stored at (p, v). -/
theorem arr1_apply (c : Dev nD) (i : Fin 4) (p : Fin 512) (v : Fin 256) :
    ((dat1 V c).arrAt 2 cfg1.N : Vec F S2048x256 .f32) (ix2 (rowOf i p) v)
      = k1_pay5 (accAt V c (pt1 i 3).val (pt1 i 3).isLt).2 (accAt V c (pt1 i 3).val (pt1 i 3).isLt).1 (ix2 p v) := by
  refine arr1_read V c (pt1 i 3) ?_ (ix2 p v) (ix2 (rowOf i p) v) ?_ rfl
  · show (4 * i.val + 3) % 4 = 3
    omega
  · show 512 * i.val + p.val = 512 * ((4 * i.val + 3) / 4) + p.val
    omega

end Cert.KernelIdeal.Hand

end
-- ==== Proof.HandKernelIdeal.Val.lean ====
/-
  The kernel's result is the specification's function of its two arguments.
  After the first launch the log-weight array holds lw(v, d) = log (max ε (10 · σ raw(v, d))). In the second launch
  the product accumulator of row tile i after its four column tiles is
  (((0 + S₀) + S₁) + S₂) + S₃ with S_k = ∑_j b(512 i + p, 4096 k + j) · lw(v, 4096 k + j), which is the whole sum over
  d = 4096 k + j of b · lw because addition on the extended reals is commutative and associative (no finiteness is
  used); the count accumulator is the whole row sum the same way; the stored output is exp (acc / max (count, 1)).
-/
import proofs.«104831_j17901423690383_1_alg».proof.Proof.HandKernelIdeal.Run
import proofs.«104831_j17901423690383_1_alg».proof.Proof.HandKernelIdeal.Pay
import proofs.«104831_j17901423690383_1_alg».proof.Proof.HandKernelIdeal.Blk0
import proofs.«104831_j17901423690383_1_alg».proof.Proof.HandKernelIdeal.Blk1
import Mathlib.Algebra.BigOperators.Fin
import Mathlib.Logic.Equiv.Fin.Basic
import proofs.«104831_j17901423690383_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

/-! ## A sum over 16384 = 4 × 4096 columns, tile by tile -/

/-- The sum over all columns is the sum of the four column tiles' sums, added up from zero in tile order. -/
theorem sum_tiles {M : Type} [AddCommMonoid M] (f : Fin 16384 → M) :
    ∑ d, f d = (((0 + ∑ j, f (colOf 0 j)) + ∑ j, f (colOf 1 j)) + ∑ j, f (colOf 2 j)) + ∑ j, f (colOf 3 j) := by
  have e : ∑ d : Fin 16384, f d = ∑ x : Fin 4 × Fin 4096, f (colOf x.1 x.2) := by
    refine (Fintype.sum_equiv (finProdFinEquiv (m := 4) (n := 4096)) (fun x => f (colOf x.1 x.2)) (fun d => f d) (fun x => ?_)).symm
    refine congrArg f (Fin.ext ?_)
    show 4096 * x.1.val + x.2.val = x.2.val + 4096 * x.1.val
    omega
  rw [e, Fintype.sum_prod_type, Fin.sum_univ_four, zero_add]

/-- Every column is column j of tile k for k = d / 4096, j = d % 4096; every row is row p of tile i likewise. -/
theorem col_split (d : Fin 16384) : d = colOf ⟨d.val / 4096, by omega⟩ ⟨d.val % 4096, Nat.mod_lt _ (by decide)⟩ :=
  Fin.ext (by show d.val = 4096 * (d.val / 4096) + d.val % 4096; omega)
theorem row_split (r : Fin 2048) : r = rowOf ⟨r.val / 512, by omega⟩ ⟨r.val % 512, Nat.mod_lt _ (by decide)⟩ :=
  Fin.ext (by show r.val = 512 * (r.val / 512) + r.val % 512; omega)

/-! ## The accumulators, column tile by column tile -/

section
variable {F : FTy → Type} [FloatOps F]
variable (V : (c : Dev nD) → (b : Ref sig .tc) → Buf (Elt F) ((c : Thread nD τ).loc b))

theorem accAt_congr (c : Dev nD) {n n' : ℕ} (h : n = n') (hn : n < cfg1.N) (hn' : n' < cfg1.N) :
    accAt V c n hn = accAt V c n' hn' := by subst h; rfl

/-- At column tile 0 the accumulators restart. -/
theorem accAt_tile0 (c : Dev nD) (i : Fin 4) :
    accAt V c (pt1 i 0).val (pt1 i 0).isLt
      = (k1_pay3 (xblk V c (pt1 i 0)) (wblk V c (pt1 i 0)) k1_pay1, k1_pay4 (xblk V c (pt1 i 0)) k1_pay2) :=
  accAt_reset V c (pt1 i 0) (by show (4 * i.val + (0 : Fin 4).val) % 4 = 0; simp)

/-- At the next column tile they continue from the tile before. -/
theorem accAt_tileNext (c : Dev nD) (i : Fin 4) (k k' : Fin 4) (hk : k'.val = k.val + 1) :
    accAt V c (pt1 i k').val (pt1 i k').isLt
      = (k1_pay3 (xblk V c (pt1 i k')) (wblk V c (pt1 i k')) (accAt V c (pt1 i k).val (pt1 i k).isLt).1,
         k1_pay4 (xblk V c (pt1 i k')) (accAt V c (pt1 i k).val (pt1 i k).isLt).2) := by
  have e := accAt_step V c (pt1 i k') (by show ¬(4 * i.val + k'.val) % 4 = 0; omega)
  rw [accAt_congr V c (show (pt1 i k').val - 1 = (pt1 i k).val from by show 4 * i.val + k'.val - 1 = 4 * i.val + k.val; omega)
    (Nat.lt_of_le_of_lt (Nat.sub_le _ _) (pt1 i k').isLt) (pt1 i k).isLt] at e
  exact e

end

/-! ## At the extended reals -/

variable (m : (ℓ : Loc nD τ sig) → Buf (Elt Ideal) ℓ) (ρ : Dev nD → PrngReg)

/-- The two arguments at their literal types. -/
abbrev bArg (c : Dev nD) : SB.Idx → EReal := m ((c : Thread nD τ).loc main_arg0)
abbrev rawArg (c : Dev nD) : SW.Idx → EReal := m ((c : Thread nD τ).loc main_arg1)

/-- After the first launch the log-weight array holds lw. -/
theorem logw_arr (c : Dev nD) (v : Fin 256) (d : Fin 16384) :
    (V2r m ρ c main_v0 : Vec Ideal S256x16384 .bf16) (ix2 v d) = lw (rawArg m c) v d := by
  rw [col_split d, V2r_main_v0, arr0_apply (V0r m ρ) c _ v _, pay0_apply, iblk0_apply (V0r m ρ) c _ v _, V0r_main_arg1]
  rfl

/-- The 0/1 block of point (i, k) read through the argument. -/
theorem xblk_arg (c : Dev nD) (i k : Fin 4) (p : Fin 512) (j : Fin 4096) :
    xblk (V2r m ρ) c (pt1 i k) (ix2 p j) = bArg m c (ixB (rowOf i p) (colOf k j)) := by
  rw [xblk_apply (V2r m ρ) c i k p j, V2r_main_arg0]

/-- The log-weight block of point (i, k) read through lw. -/
theorem wblk_lw (c : Dev nD) (i k : Fin 4) (q : Fin 256) (j : Fin 4096) :
    wblk (V2r m ρ) c (pt1 i k) (ix2 q j) = lw (rawArg m c) q (colOf k j) := by
  rw [wblk_apply (V2r m ρ) c i k q j, logw_arr]

/-- One column tile's contribution to the product accumulator, and to the count. -/
theorem tile_prod (c : Dev nD) (i k : Fin 4) (p : Fin 512) (q : Fin 256) :
    ∑ j : Fin 4096, xblk (V2r m ρ) c (pt1 i k) (ix2 p j) * wblk (V2r m ρ) c (pt1 i k) (ix2 q j)
      = ∑ j : Fin 4096, bArg m c (ixB (rowOf i p) (colOf k j)) * lw (rawArg m c) q (colOf k j) :=
  Finset.sum_congr rfl fun j _ => by rw [xblk_arg, wblk_lw]
theorem tile_count (c : Dev nD) (i k : Fin 4) (p : Fin 512) :
    ∑ j : Fin 4096, xblk (V2r m ρ) c (pt1 i k) (ix2 p j) = ∑ j : Fin 4096, bArg m c (ixB (rowOf i p) (colOf k j)) :=
  Finset.sum_congr rfl fun j _ => by rw [xblk_arg]

/-- After its four column tiles the product accumulator of row tile i holds the masked log-sum. -/
theorem acc_last (c : Dev nD) (i : Fin 4) (p : Fin 512) (q : Fin 256) :
    (accAt (V2r m ρ) c (pt1 i 3).val (pt1 i 3).isLt).1 (ix2 p q) = logSum (bArg m c) (rawArg m c) (rowOf i p) q := by
  unfold logSum
  rw [sum_tiles]
  rw [accAt_tileNext (V2r m ρ) c i 2 3 rfl]; dsimp only
  rw [pay3_apply, tile_prod]
  rw [accAt_tileNext (V2r m ρ) c i 1 2 rfl]; dsimp only
  rw [pay3_apply, tile_prod]
  rw [accAt_tileNext (V2r m ρ) c i 0 1 rfl]; dsimp only
  rw [pay3_apply, tile_prod]
  rw [accAt_tile0 (V2r m ρ) c i]; dsimp only
  rw [pay3_apply, tile_prod, pay1_apply]

/-- And the count accumulator holds the row's number of active entries. -/
theorem cnt_last (c : Dev nD) (i : Fin 4) (p : Fin 512) :
    (accAt (V2r m ρ) c (pt1 i 3).val (pt1 i 3).isLt).2 (ix2 p (0 : Fin 1)) = nAct (bArg m c) (rowOf i p) := by
  unfold nAct
  rw [sum_tiles]
  rw [accAt_tileNext (V2r m ρ) c i 2 3 rfl]; dsimp only
  rw [pay4_apply, tile_count]
  rw [accAt_tileNext (V2r m ρ) c i 1 2 rfl]; dsimp only
  rw [pay4_apply, tile_count]
  rw [accAt_tileNext (V2r m ρ) c i 0 1 rfl]; dsimp only
  rw [pay4_apply, tile_count]
  rw [accAt_tile0 (V2r m ρ) c i]; dsimp only
  rw [pay4_apply, tile_count, pay2_apply]

/-- THE KERNEL'S VALUE: after the run the result array is the specification's function of the two arguments. -/
theorem kernel_eq_G (c : Dev nD) :
    ((dat1 (V2r m ρ) c).arrAt 2 cfg1.N : Vec Ideal S2048x256 .f32) = G (bArg m c) (rawArg m c) := by
  funext idx
  obtain ⟨r, v, rfl⟩ : ∃ (r : Fin 2048) (v : Fin 256), idx = ix2 r v := ⟨idx 0, idx 1, eq_ix2 idx⟩
  rw [row_split r, arr1_apply (V2r m ρ) c _ _ v, pay5_apply, acc_last, cnt_last]
  rfl

end Cert.KernelIdeal.Hand

end
-- ==== Proof.RefValue.lean ====
/-
  The reference's result, read one host operation at a time, is the specification's function of its two arguments.
-/
import proofs.«104831_j17901423690383_1_alg».proof.Proof.Gen.ReferenceIdeal.Run
import proofs.«104831_j17901423690383_1_alg».proof.Proof.Gen.ReferenceIdeal.Read
import proofs.«104831_j17901423690383_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.Spec

/-- The ninth stage, log (max ε (10 · (1 / (1 + exp (−raw))))), read at (v, d) is the specification's log-weight:
    the sigmoid is by definition 1 / (1 + exp (−x)), and the word 0x3F800000 denotes the extended real one. -/
theorem v9_eq_lw (x1 : (⟨Cert.ReferenceIdeal.S256x16384, .f32⟩ : BufTy).Contents (Elt Ideal)) (v : Fin 256) (d : Fin 16384) :
    Cert.ReferenceIdeal.Read.val_main_v9 (F := Ideal) x1 (ixW v d) = lw x1 v d := by
  rw [Read.val_main_v9_apply, Read.val_main_v8_apply, Read.val_main_call0_v1_apply, Read.val_main_call0_v0_apply,
    Read.val_main_cst_2_apply, Read.val_main_v7_apply, Read.val_main_v6_apply, Read.val_main_cst_1_apply,
    Read.val_main_v5_apply, Read.val_main_v4_apply, Read.val_main_cst_0_apply, Read.val_main_v3_apply,
    Read.val_main_v2_apply, Read.val_main_cst_apply, Read.val_main_v1_apply, Read.val_main_v0_apply]
  simp only [Ideal.hostUnary_log_def, Ideal.maximumf_def, Ideal.ofBits_def, Ideal.mulf_def, Ideal.hostDivf_def,
    Ideal.addf_def, Ideal.hostUnary_exp_def, Ideal.hostNegf_def, Ideal.negf_def]
  rw [Ideal.ofBits_one_f32]
  rfl

/-- The reference is the specification's function: the contraction is the masked log-sum, the row sum from the
    initial value zero is the active count, and max is commutative. -/
theorem ref_eq_G (x0 : (⟨Cert.ReferenceIdeal.S2048x16384, .f32⟩ : BufTy).Contents (Elt Ideal)) (x1 : (⟨Cert.ReferenceIdeal.S256x16384, .f32⟩ : BufTy).Contents (Elt Ideal)) :
    Cert.ReferenceIdeal.Read.val_main_v16 (F := Ideal) x0 x1 = Cert.Spec.G x0 x1 := by
  funext i
  obtain ⟨r, v, rfl⟩ : ∃ (r : Fin 2048) (v : Fin 256), i = ix2 r v := ⟨i 0, i 1, eq_ix2 i⟩
  rw [Read.val_main_v16_apply, Read.val_main_v15_apply, Read.val_main_v10_apply, Read.val_main_v14_apply,
    Read.val_main_v13_apply, Read.val_main_call1_v1_apply, Read.val_main_call1_v0_apply, Read.val_main_cst_4_apply,
    Read.val_main_v12_apply, Read.val_main_v11_apply, Read.val_main_cst_3_apply]
  have hl : ∀ k : Fin 16384, Read.lidx_main_v10 (ix2 r v) k = ixB r k := fun k =>
    funext fun a => Fin.ext (by match a with | ⟨0, _⟩ => rfl | ⟨1, _⟩ => rfl)
  have hr : ∀ k : Fin 16384, Read.ridx_main_v10 (ix2 r v) k = ixW v k := fun k =>
    funext fun a => Fin.ext (by match a with | ⟨0, _⟩ => rfl | ⟨1, _⟩ => rfl)
  have hn : ∀ k : Fin 16384, Read.idx_main_v11 (Read.idx_main_v12 (Read.idx_main_v14 (ix2 r v))) k = ixB r k := fun k =>
    funext fun a => Fin.ext (by match a with | ⟨0, _⟩ => rfl | ⟨1, _⟩ => rfl)
  simp only [hl, hr, hn, v9_eq_lw]
  simp only [Ideal.hostUnary_exp_def, Ideal.hostDivf_def, Ideal.maximumf_def, Ideal.ofBits_def]
  rw [Ideal.ofBits_zero_f32, zero_add, max_comm]
  rfl

end Cert.ReferenceIdeal.RefValue

end
-- ==== Proof.lean ====
/-
  Two programs compute, for a 0/1 matrix b[2048, 16384] and raw weights raw[256, 16384], the geometric mean of the
  bounded weights 10 · σ(raw) (floored at ε) that each row's active entries select:
  out(r, v) = exp ((∑_d b(r, d) · log (max ε (10 · σ raw(v, d)))) / max (∑_d b(r, d)) 1).
  The kernel does it in two launches — the log-weights, elementwise and tiled by columns; then a 4 × 4 grid that
  accumulates, per row tile, the block products and the block row sums over the four column tiles in two carried
  accumulators and stores exp (acc / max (count, 1)) at the last column tile. The reference does it with one
  contraction and one row sum. Over the extended reals the two agree index by index: a cast between float formats is
  the identity, the sigmoid is 1 / (1 + e^(-x)) on both sides, and the kernel's tile-by-tile sums are the reference's
  whole sums because addition is commutative and associative there (the finiteness of the inputs is not needed).
  The three frames: each launch of the kernel runs to its end leaving the arguments as found (at both float
  instances, by one text); the reference's run gives its frame.
-/
import proofs.«104831_j17901423690383_1_alg».proof.Defs
import proofs.«104831_j17901423690383_1_alg».proof.Proof.Gen.Kernel
import proofs.«104831_j17901423690383_1_alg».proof.Proof.Gen.KernelIdeal
import proofs.«104831_j17901423690383_1_alg».proof.Proof.Gen.ReferenceIdeal
import proofs.«104831_j17901423690383_1_alg».proof.Proof.Gen.Pre_finite_inputs
import proofs.«104831_j17901423690383_1_alg».proof.Proof.Gen.ReferenceIdeal.Run
import proofs.«104831_j17901423690383_1_alg».proof.Proof.Gen.ReferenceIdeal.Read
import proofs.«104831_j17901423690383_1_alg».proof.Proof.HandKernel.Run
import proofs.«104831_j17901423690383_1_alg».proof.Proof.HandKernelIdeal.Run
import proofs.«104831_j17901423690383_1_alg».proof.Proof.HandKernelIdeal.Val
import proofs.«104831_j17901423690383_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's function of the (agreeing) arguments. -/
theorem algebraic : Cert.algebraic_KernelIdeal_ReferenceIdeal := by
  intro m ρ m' ρ' _ hagree
  refine ⟨fun c => Cert.Spec.G (Cert.KernelIdeal.Hand.bArg m c) (Cert.KernelIdeal.Hand.rawArg m c), ?_, ?_⟩
  · exact (θ_run Cert.KernelIdeal.defs _ _).mono
      (fun _ h c => ⟨(h c).1.trans (Cert.KernelIdeal.Hand.kernel_eq_G m ρ c), (h c).2⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v16_eq (F := Ideal) _ _).trans ?_
    rw [Cert.ReferenceIdeal.RefValue.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
